-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S125000 : Shape := ⟨1, ![125000]⟩
abbrev S2048x128 : Shape := ⟨2, ![2048, 128]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_
  bcast_S_S125000 : S_.BroadcastsInDim S125000 (![] : Fin 0 → Fin S125000.rank)
  reducesTo_S125000_S_d0 : S125000.ReducesTo [0] S_

variable [Facts]

def fn_part4 {F : FTy → Type} [FloatOps F] (main_arg8 : IVec S125000 32) (main_v66 : IVec S_ 1) (main_c_26 : IVec S_ 32) : IVec S_ 1 :=
  let main_v67 : IVec S125000 32 := broadcastInDim S125000 ![] bcast_S_S125000 main_c_26
  let main_v68 : IVec S125000 1 := cmpi .sge main_arg8 main_v67
  let main_c_27 : IVec S_ 32 := constantI S_ 32 64#32
  let main_v69 : IVec S125000 32 := broadcastInDim S125000 ![] bcast_S_S125000 main_c_27
  let main_v70 : IVec S125000 1 := cmpi .slt main_arg8 main_v69
  let main_v71 : IVec S125000 1 := andi main_v68 main_v70
  let main_c_28 : IVec S_ 1 := constantI S_ 1 1#1
  let main_v72 : IVec S_ 1 := (fun x v => Host.reduce IntOp.andi x v reducesTo_S125000_S_d0 h_S_) main_v71 main_c_28
  let main_v73 : IVec S_ 1 := andi main_v66 main_v72
  main_v73

def fn_part3 {F : FTy → Type} [FloatOps F] (main_arg4 : IVec S125000 32) (main_arg6 : IVec S125000 32) (main_arg8 : IVec S125000 32) (main_v45 : IVec S_ 1) (main_v50 : IVec S125000 1) : IVec S_ 1 :=
  let main_c_19 : IVec S_ 1 := constantI S_ 1 1#1
  let main_v51 : IVec S_ 1 := (fun x v => Host.reduce IntOp.andi x v reducesTo_S125000_S_d0 h_S_) main_v50 main_c_19
  let main_v52 : IVec S_ 1 := andi main_v45 main_v51
  let main_c_20 : IVec S_ 32 := constantI S_ 32 0#32
  let main_v53 : IVec S125000 32 := broadcastInDim S125000 ![] bcast_S_S125000 main_c_20
  let main_v54 : IVec S125000 1 := cmpi .sge main_arg4 main_v53
  let main_c_21 : IVec S_ 32 := constantI S_ 32 64#32
  let main_v55 : IVec S125000 32 := broadcastInDim S125000 ![] bcast_S_S125000 main_c_21
  let main_v56 : IVec S125000 1 := cmpi .slt main_arg4 main_v55
  let main_v57 : IVec S125000 1 := andi main_v54 main_v56
  let main_c_22 : IVec S_ 1 := constantI S_ 1 1#1
  let main_v58 : IVec S_ 1 := (fun x v => Host.reduce IntOp.andi x v reducesTo_S125000_S_d0 h_S_) main_v57 main_c_22
  let main_v59 : IVec S_ 1 := andi main_v52 main_v58
  let main_c_23 : IVec S_ 32 := constantI S_ 32 0#32
  let main_v60 : IVec S125000 32 := broadcastInDim S125000 ![] bcast_S_S125000 main_c_23
  let main_v61 : IVec S125000 1 := cmpi .sge main_arg6 main_v60
  let main_c_24 : IVec S_ 32 := constantI S_ 32 64#32
  let main_v62 : IVec S125000 32 := broadcastInDim S125000 ![] bcast_S_S125000 main_c_24
  let main_v63 : IVec S125000 1 := cmpi .slt main_arg6 main_v62
  let main_v64 : IVec S125000 1 := andi main_v61 main_v63
  let main_c_25 : IVec S_ 1 := constantI S_ 1 1#1
  let main_v65 : IVec S_ 1 := (fun x v => Host.reduce IntOp.andi x v reducesTo_S125000_S_d0 h_S_) main_v64 main_c_25
  let main_v66 : IVec S_ 1 := andi main_v59 main_v65
  let main_c_26 : IVec S_ 32 := constantI S_ 32 0#32
  fn_part4 (F := F) main_arg8 main_v66 main_c_26

def fn_part2 {F : FTy → Type} [FloatOps F] (main_arg0 : IVec S1000000 32) (main_arg2 : IVec S125000 32) (main_arg4 : IVec S125000 32) (main_arg6 : IVec S125000 32) (main_arg8 : IVec S125000 32) (main_arg16 : FVec F S128 .f32) (main_v33 : IVec S_ 1) : IVec S_ 1 :=
  let main_v34 : FVec F S128 .f32 := Host.absf main_arg16
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S1000000 32 := broadcastInDim S1000000 ![] bcast_S_S1000000 main_c_14
  let main_v40 : IVec S1000000 1 := cmpi .sge main_arg0 main_v39
  let main_c_15 : IVec S_ 32 := constantI S_ 32 2048#32
  let main_v41 : IVec S1000000 32 := broadcastInDim S1000000 ![] bcast_S_S1000000 main_c_15
  let main_v42 : IVec S1000000 1 := cmpi .slt main_arg0 main_v41
  let main_v43 : IVec S1000000 1 := andi main_v40 main_v42
  let main_c_16 : IVec S_ 1 := constantI S_ 1 1#1
  let main_v44 : IVec S_ 1 := (fun x v => Host.reduce IntOp.andi x v reducesTo_S1000000_S_d0 h_S_) main_v43 main_c_16
  let main_v45 : IVec S_ 1 := andi main_v38 main_v44
  let main_c_17 : IVec S_ 32 := constantI S_ 32 0#32
  let main_v46 : IVec S125000 32 := broadcastInDim S125000 ![] bcast_S_S125000 main_c_17
  let main_v47 : IVec S125000 1 := cmpi .sge main_arg2 main_v46
  let main_c_18 : IVec S_ 32 := constantI S_ 32 64#32
  let main_v48 : IVec S125000 32 := broadcastInDim S125000 ![] bcast_S_S125000 main_c_18
  let main_v49 : IVec S125000 1 := cmpi .slt main_arg2 main_v48
  let main_v50 : IVec S125000 1 := andi main_v47 main_v49
  fn_part3 (F := F) main_arg4 main_arg6 main_arg8 main_v45 main_v50

def fn_part1 {F : FTy → Type} [FloatOps F] (main_arg0 : IVec S1000000 32) (main_arg2 : IVec S125000 32) (main_arg4 : IVec S125000 32) (main_arg6 : IVec S125000 32) (main_arg8 : IVec S125000 32) (main_arg13 : FVec F S64x128 .f32) (main_arg14 : FVec F S128x128 .f32) (main_arg15 : FVec F S128x128 .f32) (main_arg16 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg13
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128x128 .f32 := Host.absf main_arg14
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg15
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg2 main_arg4 main_arg6 main_arg8 main_arg16 main_v33

def fn {F : FTy → Type} [FloatOps F] (main_arg0 : IVec S1000000 32) (main_arg1 : IVec S125000 32) (main_arg2 : IVec S125000 32) (main_arg3 : IVec S125000 32) (main_arg4 : IVec S125000 32) (main_arg5 : IVec S125000 32) (main_arg6 : IVec S125000 32) (main_arg7 : IVec S125000 32) (main_arg8 : IVec S125000 32) (main_arg9 : FVec F S2048x128 .f32) (main_arg10 : FVec F S64x128 .f32) (main_arg11 : FVec F S64x128 .f32) (main_arg12 : FVec F S64x128 .f32) (main_arg13 : FVec F S64x128 .f32) (main_arg14 : FVec F S128x128 .f32) (main_arg15 : FVec F S128x128 .f32) (main_arg16 : FVec F S128 .f32) : IVec S_ 1 :=
  let main_v0 : FVec F S2048x128 .f32 := Host.absf main_arg9
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S64x128 .f32 := Host.absf main_arg10
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg11
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg12
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg0 main_arg2 main_arg4 main_arg6 main_arg8 main_arg13 main_arg14 main_arg15 main_arg16 main_v13 main_v16
-- ==== Kernel.lean ====
abbrev S1000000 : Shape := ⟨1, ![1000000]⟩
abbrev S125000 : Shape := ⟨1, ![125000]⟩
abbrev S2048x128 : Shape := ⟨2, ![2048, 128]⟩
abbrev S64x128 : Shape := ⟨2, ![64, 128]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S125000x1 : Shape := ⟨2, ![125000, 1]⟩
abbrev S125000x128 : Shape := ⟨2, ![125000, 128]⟩
abbrev S1x128 : Shape := ⟨2, ![1, 128]⟩
abbrev S8000x128 : Shape := ⟨2, ![8000, 128]⟩

abbrev nBuf : Space → Nat
  | .hbm => 177
  | .vmem => 7
  | .smem => 0
  | _ => 0

abbrev hbmTy0_0 (i : Nat) : BufTy := match i % 128 with
  | 0 => ⟨S1000000, .i32⟩
  | 1 => ⟨S125000, .i32⟩
  | 2 => ⟨S125000, .i32⟩
  | 3 => ⟨S125000, .i32⟩
  | 4 => ⟨S125000, .i32⟩
  | 5 => ⟨S125000, .i32⟩
  | 6 => ⟨S125000, .i32⟩
  | 7 => ⟨S125000, .i32⟩
  | 8 => ⟨S125000, .i32⟩
  | 9 => ⟨S2048x128, .f32⟩
  | 10 => ⟨S64x128, .f32⟩
  | 11 => ⟨S64x128, .f32⟩
  | 12 => ⟨S64x128, .f32⟩
  | 13 => ⟨S64x128, .f32⟩
  | 14 => ⟨S128x128, .f32⟩
  | 15 => ⟨S128x128, .f32⟩
  | 16 => ⟨S128, .f32⟩
  | 17 => ⟨S2048x128, .f32⟩
  | 18 => ⟨S64x128, .f32⟩
  | 19 => ⟨S64x128, .f32⟩
  | 20 => ⟨S64x128, .f32⟩
  | 21 => ⟨S64x128, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1, .i32⟩
  | 31 => ⟨S_, .i32⟩
  | 32 => ⟨S1000000x1, .i32⟩
  | 33 => ⟨S1000000x1, .i1⟩
  | 34 => ⟨S1x1, .i32⟩
  | 35 => ⟨S1000000x1, .i32⟩
  | 36 => ⟨S1000000x1, .i1⟩
  | 37 => ⟨S1000000x1, .i1⟩
  | 38 => ⟨S_, .i1⟩
  | 39 => ⟨S1000000, .i1⟩
  | 40 => ⟨S1000000x128, .f32⟩
  | 41 => ⟨S1000000x128, .i1⟩
  | 42 => ⟨S_, .f32⟩
  | 43 => ⟨S1000000x128, .f32⟩
  | 44 => ⟨S1000000x128, .f32⟩
  | 45 => ⟨S_, .f32⟩
  | 46 => ⟨S1000000x128, .f32⟩
  | 47 => ⟨S_, .i32⟩
  | 48 => ⟨S125000, .i32⟩
  | 49 => ⟨S125000, .i1⟩
  | 50 => ⟨S_, .i32⟩
  | 51 => ⟨S125000, .i32⟩
  | 52 => ⟨S125000, .i32⟩
  | 53 => ⟨S125000, .i32⟩
  | 54 => ⟨S125000x1, .i32⟩
  | 55 => ⟨S1, .i32⟩
  | 56 => ⟨S_, .i32⟩
  | 57 => ⟨S125000x1, .i32⟩
  | 58 => ⟨S125000x1, .i1⟩
  | 59 => ⟨S1x1, .i32⟩
  | 60 => ⟨S125000x1, .i32⟩
  | 61 => ⟨S125000x1, .i1⟩
  | 62 => ⟨S125000x1, .i1⟩
  | 63 => ⟨S_, .i1⟩
  | 64 => ⟨S125000, .i1⟩
  | 65 => ⟨S125000x128, .f32⟩
  | 66 => ⟨S125000x128, .i1⟩
  | 67 => ⟨S_, .f32⟩
  | 68 => ⟨S125000x128, .f32⟩
  | 69 => ⟨S125000x128, .f32⟩
  | 70 => ⟨S_, .i32⟩
  | 71 => ⟨S125000, .i32⟩
  | 72 => ⟨S125000, .i1⟩
  | 73 => ⟨S_, .i32⟩
  | 74 => ⟨S125000, .i32⟩
  | 75 => ⟨S125000, .i32⟩
  | 76 => ⟨S125000, .i32⟩
  | 77 => ⟨S125000x1, .i32⟩
  | 78 => ⟨S1000000x128, .f32⟩
  | 79 => ⟨S_, .i32⟩
  | 80 => ⟨S125000, .i32⟩
  | 81 => ⟨S125000, .i1⟩
  | 82 => ⟨S_, .i32⟩
  | 83 => ⟨S125000, .i32⟩
  | 84 => ⟨S125000, .i32⟩
  | 85 => ⟨S125000, .i32⟩
  | 86 => ⟨S125000x1, .i32⟩
  | 87 => ⟨S1, .i32⟩
  | 88 => ⟨S_, .i32⟩
  | 89 => ⟨S125000x1, .i32⟩
  | 90 => ⟨S125000x1, .i1⟩
  | 91 => ⟨S1x1, .i32⟩
  | 92 => ⟨S125000x1, .i32⟩
  | 93 => ⟨S125000x1, .i1⟩
  | 94 => ⟨S125000x1, .i1⟩
  | 95 => ⟨S_, .i1⟩
  | 96 => ⟨S125000, .i1⟩
  | 97 => ⟨S125000x128, .f32⟩
  | 98 => ⟨S125000x128, .i1⟩
  | 99 => ⟨S_, .f32⟩
  | 100 => ⟨S125000x128, .f32⟩
  | 101 => ⟨S125000x128, .f32⟩
  | 102 => ⟨S_, .i32⟩
  | 103 => ⟨S125000, .i32⟩
  | 104 => ⟨S125000, .i1⟩
  | 105 => ⟨S_, .i32⟩
  | 106 => ⟨S125000, .i32⟩
  | 107 => ⟨S125000, .i32⟩
  | 108 => ⟨S125000, .i32⟩
  | 109 => ⟨S125000x1, .i32⟩
  | 110 => ⟨S1000000x128, .f32⟩
  | 111 => ⟨S_, .i32⟩
  | 112 => ⟨S125000, .i32⟩
  | 113 => ⟨S125000, .i1⟩
  | 114 => ⟨S_, .i32⟩
  | 115 => ⟨S125000, .i32⟩
  | 116 => ⟨S125000, .i32⟩
  | 117 => ⟨S125000, .i32⟩
  | 118 => ⟨S125000x1, .i32⟩
  | 119 => ⟨S1, .i32⟩
  | 120 => ⟨S_, .i32⟩
  | 121 => ⟨S125000x1, .i32⟩
  | 122 => ⟨S125000x1, .i1⟩
  | 123 => ⟨S1x1, .i32⟩
  | 124 => ⟨S125000x1, .i32⟩
  | 125 => ⟨S125000x1, .i1⟩
  | 126 => ⟨S125000x1, .i1⟩
  | 127 => ⟨S_, .i1⟩
  | _ => ⟨S1000000, .i32⟩

abbrev hbmTy0_1 (i : Nat) : BufTy := match i % 128 with
  | 0 => ⟨S125000, .i1⟩
  | 1 => ⟨S125000x128, .f32⟩
  | 2 => ⟨S125000x128, .i1⟩
  | 3 => ⟨S_, .f32⟩
  | 4 => ⟨S125000x128, .f32⟩
  | 5 => ⟨S125000x128, .f32⟩
  | 6 => ⟨S_, .i32⟩
  | 7 => ⟨S125000, .i32⟩
  | 8 => ⟨S125000, .i1⟩
  | 9 => ⟨S_, .i32⟩
  | 10 => ⟨S125000, .i32⟩
  | 11 => ⟨S125000, .i32⟩
  | 12 => ⟨S125000, .i32⟩
  | 13 => ⟨S125000x1, .i32⟩
  | 14 => ⟨S1000000x128, .f32⟩
  | 15 => ⟨S_, .i32⟩
  | 16 => ⟨S125000, .i32⟩
  | 17 => ⟨S125000, .i1⟩
  | 18 => ⟨S_, .i32⟩
  | 19 => ⟨S125000, .i32⟩
  | 20 => ⟨S125000, .i32⟩
  | 21 => ⟨S125000, .i32⟩
  | 22 => ⟨S125000x1, .i32⟩
  | 23 => ⟨S1, .i32⟩
  | 24 => ⟨S_, .i32⟩
  | 25 => ⟨S125000x1, .i32⟩
  | 26 => ⟨S125000x1, .i1⟩
  | 27 => ⟨S1x1, .i32⟩
  | 28 => ⟨S125000x1, .i32⟩
  | 29 => ⟨S125000x1, .i1⟩
  | 30 => ⟨S125000x1, .i1⟩
  | 31 => ⟨S_, .i1⟩
  | 32 => ⟨S125000, .i1⟩
  | 33 => ⟨S125000x128, .f32⟩
  | 34 => ⟨S125000x128, .i1⟩
  | 35 => ⟨S_, .f32⟩
  | 36 => ⟨S125000x128, .f32⟩
  | 37 => ⟨S125000x128, .f32⟩
  | 38 => ⟨S_, .i32⟩
  | 39 => ⟨S125000, .i32⟩
  | 40 => ⟨S125000, .i1⟩
  | 41 => ⟨S_, .i32⟩
  | 42 => ⟨S125000, .i32⟩
  | 43 => ⟨S125000, .i32⟩
  | 44 => ⟨S125000, .i32⟩
  | 45 => ⟨S125000x1, .i32⟩
  | 46 => ⟨S1000000x128, .f32⟩
  | 47 => ⟨S1x128, .f32⟩
  | 48 => ⟨S1000000x128, .f32⟩
  | _ => ⟨S1000000, .i32⟩

abbrev hbmTy (i : Nat) : BufTy := match i / 128 with
  | 0 => hbmTy0_0 i
  | 1 => hbmTy0_1 i
  | _ => ⟨S1000000, .i32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S1x128, .f32⟩
  | .local _ .vmem, ⟨5, _⟩ => ⟨S8000x128, .f32⟩
  | .local _ .vmem, ⟨6, _⟩ => ⟨S8000x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_call0_c : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_c_0 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_c_1 : Ref sig .tc := ⟨.hbm, 30, rfl⟩
abbrev main_call0_call0_c_2 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_call0_c_3 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst : Ref sig .tc := ⟨.hbm, 42, rfl⟩
abbrev main_call0_call0_v15 : Ref sig .tc := ⟨.hbm, 43, rfl⟩
abbrev main_call0_v5 : Ref sig .tc := ⟨.hbm, 44, rfl⟩
abbrev main_call0_cst : Ref sig .tc := ⟨.hbm, 45, rfl⟩
abbrev main_call0_v6 : Ref sig .tc := ⟨.hbm, 46, rfl⟩
abbrev main_call0_call1_c : Ref sig .tc := ⟨.hbm, 47, rfl⟩
abbrev main_call0_call1_v0 : Ref sig .tc := ⟨.hbm, 48, rfl⟩
abbrev main_call0_call1_v1 : Ref sig .tc := ⟨.hbm, 49, rfl⟩
abbrev main_call0_call1_c_0 : Ref sig .tc := ⟨.hbm, 50, rfl⟩
abbrev main_call0_call1_v2 : Ref sig .tc := ⟨.hbm, 51, rfl⟩
abbrev main_call0_call1_v3 : Ref sig .tc := ⟨.hbm, 52, rfl⟩
abbrev main_call0_call1_v4 : Ref sig .tc := ⟨.hbm, 53, rfl⟩
abbrev main_call0_call1_v5 : Ref sig .tc := ⟨.hbm, 54, rfl⟩
abbrev main_call0_call1_c_1 : Ref sig .tc := ⟨.hbm, 55, rfl⟩
abbrev main_call0_call1_c_2 : Ref sig .tc := ⟨.hbm, 56, rfl⟩
abbrev main_call0_call1_v6 : Ref sig .tc := ⟨.hbm, 57, rfl⟩
abbrev main_call0_call1_v7 : Ref sig .tc := ⟨.hbm, 58, rfl⟩
abbrev main_call0_call1_v8 : Ref sig .tc := ⟨.hbm, 59, rfl⟩
abbrev main_call0_call1_v9 : Ref sig .tc := ⟨.hbm, 60, rfl⟩
abbrev main_call0_call1_v10 : Ref sig .tc := ⟨.hbm, 61, rfl⟩
abbrev main_call0_call1_v11 : Ref sig .tc := ⟨.hbm, 62, rfl⟩
abbrev main_call0_call1_c_3 : Ref sig .tc := ⟨.hbm, 63, rfl⟩
abbrev main_call0_call1_v12 : Ref sig .tc := ⟨.hbm, 64, rfl⟩
abbrev main_call0_call1_v13 : Ref sig .tc := ⟨.hbm, 65, rfl⟩
abbrev main_call0_call1_v14 : Ref sig .tc := ⟨.hbm, 66, rfl⟩
abbrev main_call0_call1_cst : Ref sig .tc := ⟨.hbm, 67, rfl⟩
abbrev main_call0_call1_v15 : Ref sig .tc := ⟨.hbm, 68, rfl⟩
abbrev main_call0_v7 : Ref sig .tc := ⟨.hbm, 69, rfl⟩
abbrev main_call0_c : Ref sig .tc := ⟨.hbm, 70, rfl⟩
abbrev main_call0_v8 : Ref sig .tc := ⟨.hbm, 71, rfl⟩
abbrev main_call0_v9 : Ref sig .tc := ⟨.hbm, 72, rfl⟩
abbrev main_call0_c_0 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_v13 : Ref sig .tc := ⟨.hbm, 77, rfl⟩
abbrev main_call0_v14 : Ref sig .tc := ⟨.hbm, 78, rfl⟩
abbrev main_call0_call2_c : Ref sig .tc := ⟨.hbm, 79, rfl⟩
abbrev main_call0_call2_v0 : Ref sig .tc := ⟨.hbm, 80, rfl⟩
abbrev main_call0_call2_v1 : Ref sig .tc := ⟨.hbm, 81, rfl⟩
abbrev main_call0_call2_c_0 : Ref sig .tc := ⟨.hbm, 82, rfl⟩
abbrev main_call0_call2_v2 : Ref sig .tc := ⟨.hbm, 83, rfl⟩
abbrev main_call0_call2_v3 : Ref sig .tc := ⟨.hbm, 84, rfl⟩
abbrev main_call0_call2_v4 : Ref sig .tc := ⟨.hbm, 85, rfl⟩
abbrev main_call0_call2_v5 : Ref sig .tc := ⟨.hbm, 86, rfl⟩
abbrev main_call0_call2_c_1 : Ref sig .tc := ⟨.hbm, 87, rfl⟩
abbrev main_call0_call2_c_2 : Ref sig .tc := ⟨.hbm, 88, rfl⟩
abbrev main_call0_call2_v6 : Ref sig .tc := ⟨.hbm, 89, rfl⟩
abbrev main_call0_call2_v7 : Ref sig .tc := ⟨.hbm, 90, rfl⟩
abbrev main_call0_call2_v8 : Ref sig .tc := ⟨.hbm, 91, rfl⟩
abbrev main_call0_call2_v9 : Ref sig .tc := ⟨.hbm, 92, rfl⟩
abbrev main_call0_call2_v10 : Ref sig .tc := ⟨.hbm, 93, rfl⟩
abbrev main_call0_call2_v11 : Ref sig .tc := ⟨.hbm, 94, rfl⟩
abbrev main_call0_call2_c_3 : Ref sig .tc := ⟨.hbm, 95, rfl⟩
abbrev main_call0_call2_v12 : Ref sig .tc := ⟨.hbm, 96, rfl⟩
abbrev main_call0_call2_v13 : Ref sig .tc := ⟨.hbm, 97, rfl⟩
abbrev main_call0_call2_v14 : Ref sig .tc := ⟨.hbm, 98, rfl⟩
abbrev main_call0_call2_cst : Ref sig .tc := ⟨.hbm, 99, rfl⟩
abbrev main_call0_call2_v15 : Ref sig .tc := ⟨.hbm, 100, rfl⟩
abbrev main_call0_v15 : Ref sig .tc := ⟨.hbm, 101, rfl⟩
abbrev main_call0_c_1 : Ref sig .tc := ⟨.hbm, 102, rfl⟩
abbrev main_call0_v16 : Ref sig .tc := ⟨.hbm, 103, rfl⟩
abbrev main_call0_v17 : Ref sig .tc := ⟨.hbm, 104, rfl⟩
abbrev main_call0_c_2 : Ref sig .tc := ⟨.hbm, 105, rfl⟩
abbrev main_call0_v18 : Ref sig .tc := ⟨.hbm, 106, rfl⟩
abbrev main_call0_v19 : Ref sig .tc := ⟨.hbm, 107, rfl⟩
abbrev main_call0_v20 : Ref sig .tc := ⟨.hbm, 108, rfl⟩
abbrev main_call0_v21 : Ref sig .tc := ⟨.hbm, 109, rfl⟩
abbrev main_call0_v22 : Ref sig .tc := ⟨.hbm, 110, rfl⟩
abbrev main_call0_call3_c : Ref sig .tc := ⟨.hbm, 111, rfl⟩
abbrev main_call0_call3_v0 : Ref sig .tc := ⟨.hbm, 112, rfl⟩
abbrev main_call0_call3_v1 : Ref sig .tc := ⟨.hbm, 113, rfl⟩
abbrev main_call0_call3_c_0 : Ref sig .tc := ⟨.hbm, 114, rfl⟩
abbrev main_call0_call3_v2 : Ref sig .tc := ⟨.hbm, 115, rfl⟩
abbrev main_call0_call3_v3 : Ref sig .tc := ⟨.hbm, 116, rfl⟩
abbrev main_call0_call3_v4 : Ref sig .tc := ⟨.hbm, 117, rfl⟩
abbrev main_call0_call3_v5 : Ref sig .tc := ⟨.hbm, 118, rfl⟩
abbrev main_call0_call3_c_1 : Ref sig .tc := ⟨.hbm, 119, rfl⟩
abbrev main_call0_call3_c_2 : Ref sig .tc := ⟨.hbm, 120, rfl⟩
abbrev main_call0_call3_v6 : Ref sig .tc := ⟨.hbm, 121, rfl⟩
abbrev main_call0_call3_v7 : Ref sig .tc := ⟨.hbm, 122, rfl⟩
abbrev main_call0_call3_v8 : Ref sig .tc := ⟨.hbm, 123, rfl⟩
abbrev main_call0_call3_v9 : Ref sig .tc := ⟨.hbm, 124, rfl⟩
abbrev main_call0_call3_v10 : Ref sig .tc := ⟨.hbm, 125, rfl⟩
abbrev main_call0_call3_v11 : Ref sig .tc := ⟨.hbm, 126, rfl⟩
abbrev main_call0_call3_c_3 : Ref sig .tc := ⟨.hbm, 127, rfl⟩
abbrev main_call0_call3_v12 : Ref sig .tc := ⟨.hbm, 128, rfl⟩
abbrev main_call0_call3_v13 : Ref sig .tc := ⟨.hbm, 129, rfl⟩
abbrev main_call0_call3_v14 : Ref sig .tc := ⟨.hbm, 130, rfl⟩
abbrev main_call0_call3_cst : Ref sig .tc := ⟨.hbm, 131, rfl⟩
abbrev main_call0_call3_v15 : Ref sig .tc := ⟨.hbm, 132, rfl⟩
abbrev main_call0_v23 : Ref sig .tc := ⟨.hbm, 133, rfl⟩
abbrev main_call0_c_3 : Ref sig .tc := ⟨.hbm, 134, rfl⟩
abbrev main_call0_v24 : Ref sig .tc := ⟨.hbm, 135, rfl⟩
abbrev main_call0_v25 : Ref sig .tc := ⟨.hbm, 136, rfl⟩
abbrev main_call0_c_4 : Ref sig .tc := ⟨.hbm, 137, rfl⟩
abbrev main_call0_v26 : Ref sig .tc := ⟨.hbm, 138, rfl⟩
abbrev main_call0_v27 : Ref sig .tc := ⟨.hbm, 139, rfl⟩
abbrev main_call0_v28 : Ref sig .tc := ⟨.hbm, 140, rfl⟩
abbrev main_call0_v29 : Ref sig .tc := ⟨.hbm, 141, rfl⟩
abbrev main_call0_v30 : Ref sig .tc := ⟨.hbm, 142, rfl⟩
abbrev main_call0_call4_c : Ref sig .tc := ⟨.hbm, 143, rfl⟩
abbrev main_call0_call4_v0 : Ref sig .tc := ⟨.hbm, 144, rfl⟩
abbrev main_call0_call4_v1 : Ref sig .tc := ⟨.hbm, 145, rfl⟩
abbrev main_call0_call4_c_0 : Ref sig .tc := ⟨.hbm, 146, rfl⟩
abbrev main_call0_call4_v2 : Ref sig .tc := ⟨.hbm, 147, rfl⟩
abbrev main_call0_call4_v3 : Ref sig .tc := ⟨.hbm, 148, rfl⟩
abbrev main_call0_call4_v4 : Ref sig .tc := ⟨.hbm, 149, rfl⟩
abbrev main_call0_call4_v5 : Ref sig .tc := ⟨.hbm, 150, rfl⟩
abbrev main_call0_call4_c_1 : Ref sig .tc := ⟨.hbm, 151, rfl⟩
abbrev main_call0_call4_c_2 : Ref sig .tc := ⟨.hbm, 152, rfl⟩
abbrev main_call0_call4_v6 : Ref sig .tc := ⟨.hbm, 153, rfl⟩
abbrev main_call0_call4_v7 : Ref sig .tc := ⟨.hbm, 154, rfl⟩
abbrev main_call0_call4_v8 : Ref sig .tc := ⟨.hbm, 155, rfl⟩
abbrev main_call0_call4_v9 : Ref sig .tc := ⟨.hbm, 156, rfl⟩
abbrev main_call0_call4_v10 : Ref sig .tc := ⟨.hbm, 157, rfl⟩
abbrev main_call0_call4_v11 : Ref sig .tc := ⟨.hbm, 158, rfl⟩
abbrev main_call0_call4_c_3 : Ref sig .tc := ⟨.hbm, 159, rfl⟩
abbrev main_call0_call4_v12 : Ref sig .tc := ⟨.hbm, 160, rfl⟩
abbrev main_call0_call4_v13 : Ref sig .tc := ⟨.hbm, 161, rfl⟩
abbrev main_call0_call4_v14 : Ref sig .tc := ⟨.hbm, 162, rfl⟩
abbrev main_call0_call4_cst : Ref sig .tc := ⟨.hbm, 163, rfl⟩
abbrev main_call0_call4_v15 : Ref sig .tc := ⟨.hbm, 164, rfl⟩
abbrev main_call0_v31 : Ref sig .tc := ⟨.hbm, 165, rfl⟩
abbrev main_call0_c_5 : Ref sig .tc := ⟨.hbm, 166, rfl⟩
abbrev main_call0_v32 : Ref sig .tc := ⟨.hbm, 167, rfl⟩
abbrev main_call0_v33 : Ref sig .tc := ⟨.hbm, 168, rfl⟩
abbrev main_call0_c_6 : Ref sig .tc := ⟨.hbm, 169, rfl⟩
abbrev main_call0_v34 : Ref sig .tc := ⟨.hbm, 170, rfl⟩
abbrev main_call0_v35 : Ref sig .tc := ⟨.hbm, 171, rfl⟩
abbrev main_call0_v36 : Ref sig .tc := ⟨.hbm, 172, rfl⟩
abbrev main_call0_v37 : Ref sig .tc := ⟨.hbm, 173, rfl⟩
abbrev main_call0_v38 : Ref sig .tc := ⟨.hbm, 174, rfl⟩
abbrev main_call0_v39 : Ref sig .tc := ⟨.hbm, 175, rfl⟩
abbrev main_v0 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S125000 : S_.BroadcastsInDim S125000 (![] : Fin 0 → Fin S125000.rank)
  bcast_S125000_S125000x1_0 : S125000.BroadcastsInDim S125000x1 (![0] : Fin 1 → Fin S125000x1.rank)
  bcast_S_S125000x1 : S_.BroadcastsInDim S125000x1 (![] : Fin 0 → Fin S125000x1.rank)
  bcast_S1x1_S125000x1_0_1 : S1x1.BroadcastsInDim S125000x1 (![0, 1] : Fin 2 → Fin S125000x1.rank)
  reducesTo_S125000x1_S125000_d1 : S125000x1.ReducesTo [1] S125000
  bcast_S125000_S125000x128_0 : S125000.BroadcastsInDim S125000x128 (![0] : Fin 1 → Fin S125000x128.rank)
  bcast_S_S125000x128 : S_.BroadcastsInDim S125000x128 (![] : Fin 0 → Fin S125000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  dot_S2048x128_S128x128_S2048x128_1_0_0_1_n_n_wf : DotDims.WF S2048x128 S128x128 S2048x128 [1] [0] [0] [1] [] []
  dot_S64x128_S128x128_S64x128_1_0_0_1_n_n_wf : DotDims.WF S64x128 S128x128 S64x128 [1] [0] [0] [1] [] []
  gather_S2048x128_S1000000x1_S1000000x128_1_0_n_n_0_1_1128_wf : GatherDims.WF S2048x128 S1000000x1 S1000000x128 [1] [0] [] [0] [] 1 ![1, 128]
  gather_S64x128_S125000x1_S125000x128_1_0_n_n_0_1_1128_wf : GatherDims.WF S64x128 S125000x1 S125000x128 [1] [0] [] [0] [] 1 ![1, 128]
  scatter_S1000000x128_S125000x1_S125000x128_1_0_0_1_wf : ScatterDims.WF S1000000x128 S125000x1 S125000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .f32 = 32 ∨ (Rect.block (s := S1000000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1000000x128.size a
  hwx0_3 : ∀ i : grid0.Coords, EltTy.bits .f32 = 32 ∨ (Rect.block (s := S1000000x128) S8000x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def gather_S64x128_S125000x1_S125000x128_1_0_n_n_0_1_1128 : GatherDims S64x128 S125000x1 S125000x128 where
  offsetDims := [1]
  collapsedSliceDims := [0]
  operandBatchingDims := []
  startIndicesBatchingDims := []
  startIndexMap := [0]
  indexVectorDim := 1
  sliceSizes := ![1, 128]
  wf := gather_S64x128_S125000x1_S125000x128_1_0_n_n_0_1_1128_wf
def scatter_S1000000x128_S125000x1_S125000x128_1_0_0_1 : ScatterDims S1000000x128 S125000x1 S125000x128 where
  updateWindowDims := [1]
  insertedWindowDims := [0]
  scatterDimsToOperandDims := [0]
  indexVectorDim := 1
  wf := scatter_S1000000x128_S125000x1_S125000x128_1_0_0_1_wf

abbrev win0_0 : Pipeline.Window sig grid0 :=
  Pipeline.Window.ofSpec (Memref.whole main_call0_v5) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v38) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000 : Shape := ⟨1, ![1000000]⟩
abbrev S125000 : Shape := ⟨1, ![125000]⟩
abbrev S2048x128 : Shape := ⟨2, ![2048, 128]⟩
abbrev S64x128 : Shape := ⟨2, ![64, 128]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1000000x128 : Shape := ⟨2, ![1000000, 128]⟩
abbrev S125000x1 : Shape := ⟨2, ![125000, 1]⟩
abbrev S125000x128 : Shape := ⟨2, ![125000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S125000, .i32⟩
  | .hbm, ⟨2, _⟩ => ⟨S125000, .i32⟩
  | .hbm, ⟨3, _⟩ => ⟨S125000, .i32⟩
  | .hbm, ⟨4, _⟩ => ⟨S125000, .i32⟩
  | .hbm, ⟨5, _⟩ => ⟨S125000, .i32⟩
  | .hbm, ⟨6, _⟩ => ⟨S125000, .i32⟩
  | .hbm, ⟨7, _⟩ => ⟨S125000, .i32⟩
  | .hbm, ⟨8, _⟩ => ⟨S125000, .i32⟩
  | .hbm, ⟨9, _⟩ => ⟨S2048x128, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S64x128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S1000000x128, .f32⟩
  | .hbm, ⟨28, _⟩ => ⟨S_, .i32⟩
  | .hbm, ⟨29, _⟩ => ⟨S125000, .i32⟩
  | .hbm, ⟨30, _⟩ => ⟨S125000, .i1⟩
  | .hbm, ⟨31, _⟩ => ⟨S_, .i32⟩
  | .hbm, ⟨32, _⟩ => ⟨S125000, .i32⟩
  | .hbm, ⟨33, _⟩ => ⟨S125000, .i32⟩
  | .hbm, ⟨34, _⟩ => ⟨S125000, .i32⟩
  | .hbm, ⟨35, _⟩ => ⟨S125000x1, .i32⟩
  | .hbm, ⟨36, _⟩ => ⟨S125000x128, .f32⟩
  | .hbm, ⟨37, _⟩ => ⟨S_, .i32⟩
  | .hbm, ⟨38, _⟩ => ⟨S125000, .i32⟩
  | .hbm, ⟨39, _⟩ => ⟨S125000, .i1⟩
  | .hbm, ⟨40, _⟩ => ⟨S_, .i32⟩
  | .hbm, ⟨41, _⟩ => ⟨S125000, .i32⟩
  | .hbm, ⟨42, _⟩ => ⟨S125000, .i32⟩
  | .hbm, ⟨43, _⟩ => ⟨S125000, .i32⟩
  | .hbm, ⟨44, _⟩ => ⟨S125000x1, .i32⟩
  | .hbm, ⟨45, _⟩ => ⟨S1000000x128, .f32⟩
  | .hbm, ⟨46, _⟩ => ⟨S_, .i32⟩
  | .hbm, ⟨47, _⟩ => ⟨S125000, .i32⟩
  | .hbm, ⟨48, _⟩ => ⟨S125000, .i1⟩
  | .hbm, ⟨49, _⟩ => ⟨S_, .i32⟩
  | .hbm, ⟨50, _⟩ => ⟨S125000, .i32⟩
  | .hbm, ⟨51, _⟩ => ⟨S125000, .i32⟩
  | .hbm, ⟨52, _⟩ => ⟨S125000, .i32⟩
  | .hbm, ⟨53, _⟩ => ⟨S125000x1, .i32⟩
  | .hbm, ⟨54, _⟩ => ⟨S125000x128, .f32⟩
  | .hbm, ⟨55, _⟩ => ⟨S_, .i32⟩
  | .hbm, ⟨56, _⟩ => ⟨S125000, .i32⟩
  | .hbm, ⟨57, _⟩ => ⟨S125000, .i1⟩
  | .hbm, ⟨58, _⟩ => ⟨S_, .i32⟩
  | .hbm, ⟨59, _⟩ => ⟨S125000, .i32⟩
  | .hbm, ⟨60, _⟩ => ⟨S125000, .i32⟩
  | .hbm, ⟨61, _⟩ => ⟨S125000, .i32⟩
  | .hbm, ⟨62, _⟩ => ⟨S125000x1, .i32⟩
  | .hbm, ⟨63, _⟩ => ⟨S1000000x128, .f32⟩
  | .hbm, ⟨64, _⟩ => ⟨S_, .i32⟩
  | .hbm, ⟨65, _⟩ => ⟨S125000, .i32⟩
  | .hbm, ⟨66, _⟩ => ⟨S125000, .i1⟩
  | .hbm, ⟨67, _⟩ => ⟨S_, .i32⟩
  | .hbm, ⟨68, _⟩ => ⟨S125000, .i32⟩
  | .hbm, ⟨69, _⟩ => ⟨S125000, .i32⟩
  | .hbm, ⟨70, _⟩ => ⟨S125000, .i32⟩
  | .hbm, ⟨71, _⟩ => ⟨S125000x1, .i32⟩
  | .hbm, ⟨72, _⟩ => ⟨S125000x128, .f32⟩
  | .hbm, ⟨73, _⟩ => ⟨S_, .i32⟩
  | .hbm, ⟨74, _⟩ => ⟨S125000, .i32⟩
  | .hbm, ⟨75, _⟩ => ⟨S125000, .i1⟩
  | .hbm, ⟨76, _⟩ => ⟨S_, .i32⟩
  | .hbm, ⟨77, _⟩ => ⟨S125000, .i32⟩
  | .hbm, ⟨78, _⟩ => ⟨S125000, .i32⟩
  | .hbm, ⟨79, _⟩ => ⟨S125000, .i32⟩
  | .hbm, ⟨80, _⟩ => ⟨S125000x1, .i32⟩
  | .hbm, ⟨81, _⟩ => ⟨S1000000x128, .f32⟩
  | .hbm, ⟨82, _⟩ => ⟨S_, .i32⟩
  | .hbm, ⟨83, _⟩ => ⟨S125000, .i32⟩
  | .hbm, ⟨84, _⟩ => ⟨S125000, .i1⟩
  | .hbm, ⟨85, _⟩ => ⟨S_, .i32⟩
  | .hbm, ⟨86, _⟩ => ⟨S125000, .i32⟩
  | .hbm, ⟨87, _⟩ => ⟨S125000, .i32⟩
  | .hbm, ⟨88, _⟩ => ⟨S125000, .i32⟩
  | .hbm, ⟨89, _⟩ => ⟨S125000x1, .i32⟩
  | .hbm, ⟨90, _⟩ => ⟨S125000x128, .f32⟩
  | .hbm, ⟨91, _⟩ => ⟨S_, .i32⟩
  | .hbm, ⟨92, _⟩ => ⟨S125000, .i32⟩
  | .hbm, ⟨93, _⟩ => ⟨S125000, .i1⟩
  | .hbm, ⟨94, _⟩ => ⟨S_, .i32⟩
  | .hbm, ⟨95, _⟩ => ⟨S125000, .i32⟩
  | .hbm, ⟨96, _⟩ => ⟨S125000, .i32⟩
  | .hbm, ⟨97, _⟩ => ⟨S125000, .i32⟩
  | .hbm, ⟨98, _⟩ => ⟨S125000x1, .i32⟩
  | .hbm, ⟨99, _⟩ => ⟨S1000000x128, .f32⟩
  | .hbm, ⟨100, _⟩ => ⟨S1000000x128, .f32⟩
  | .hbm, ⟨101, _⟩ => ⟨S1000000x128, .f32⟩
  | .hbm, ⟨102, _⟩ => ⟨S1000000x128, .f32⟩
  | .hbm, ⟨103, _⟩ => ⟨S1x128, .f32⟩
  | .hbm, ⟨104, _⟩ => ⟨S1000000x128, .f32⟩
  | .hbm, ⟨105, _⟩ => ⟨S1000000x128, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_c_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_15 : Ref sig .tc := ⟨.hbm, 91, rfl⟩
abbrev main_v57 : Ref sig .tc := ⟨.hbm, 92, rfl⟩
abbrev main_v58 : Ref sig .tc := ⟨.hbm, 93, rfl⟩
abbrev main_c_16 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  bcast_S_S125000 : S_.BroadcastsInDim S125000 (![] : Fin 0 → Fin S125000.rank)
  bcast_S125000_S125000x1_0 : S125000.BroadcastsInDim S125000x1 (![0] : Fin 1 → Fin S125000x1.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  gather_S2048x128_S1000000x1_S1000000x128_1_0_n_n_0_1_1128_wf : GatherDims.WF S2048x128 S1000000x1 S1000000x128 [1] [0] [] [0] [] 1 ![1, 128]
  gather_S64x128_S125000x1_S125000x128_1_0_n_n_0_1_1128_wf : GatherDims.WF S64x128 S125000x1 S125000x128 [1] [0] [] [0] [] 1 ![1, 128]
  scatter_S1000000x128_S125000x1_S125000x128_1_0_0_1_wf : ScatterDims.WF S1000000x128 S125000x1 S125000x128 [1] [0] [0] 1
  dot_S1000000x128_S128x128_S1000000x128_1_0_0_1_n_n_wf : DotDims.WF S1000000x128 S128x128 S1000000x128 [1] [0] [0] [1] [] []

variable [Facts₀]

def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def gather_S64x128_S125000x1_S125000x128_1_0_n_n_0_1_1128 : GatherDims S64x128 S125000x1 S125000x128 where
  offsetDims := [1]
  collapsedSliceDims := [0]
  operandBatchingDims := []
  startIndicesBatchingDims := []
  startIndexMap := [0]
  indexVectorDim := 1
  sliceSizes := ![1, 128]
  wf := gather_S64x128_S125000x1_S125000x128_1_0_n_n_0_1_1128_wf
def scatter_S1000000x128_S125000x1_S125000x128_1_0_0_1 : ScatterDims S1000000x128 S125000x1 S125000x128 where
  updateWindowDims := [1]
  insertedWindowDims := [0]
  scatterDimsToOperandDims := [0]
  indexVectorDim := 1
  wf := scatter_S1000000x128_S125000x1_S125000x128_1_0_0_1_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf

class Facts : Prop extends Facts₀ where

variable [Facts]
-- ==== Proof.HostTerms.lean ====
/-
  The host side of the kernel, as functions of arrays: what the operations before the merge region compute.

  take V T idx is jnp.take along the rows of a table T with V rows: a negative index is moved up by V, and a row
  whose moved index is outside [0, V - 1] is filled with the NaN word instead of a table row. The fixed contribution
  is the take of the rows of fixed_table · W_fixed at the feature indices; the sparse contribution is a table of zeros
  over which, key after key, the take of the rows of tab_k · W_sparse at val_k is written at the rows idx_k.
-/
import proofs.«412707_j52621939310811_3_alg».proof.KernelIdeal
import proofs.«412707_j52621939310811_3_alg».proof.Proof.Gen.KernelIdeal

noncomputable section

namespace Cert.Bridge.KernelHost

open Cert.KernelIdeal
open Idealize.ShloMosaic

variable {F : FTy → Type} [FloatOps F]

section Terms
open Cert.KernelIdeal.Facts₀ Cert.KernelIdeal.Facts

/-- The feature indices moved into [0, 2048) where negative, as a column of start indices. -/
def colF (ff : IVec S1000000 32) : IVec S1000000x1 32 :=
  broadcastInDim S1000000x1 ![0] bcast_S1000000_S1000000x1_0
    (select (cmpi .slt ff (broadcastInDim S1000000 ![] bcast_S_S1000000 (constantI S_ 32 0#32)))
      (addi ff (broadcastInDim S1000000 ![] bcast_S_S1000000 (constantI S_ 32 2048#32))) ff)

/-- Row by row: is the moved feature index inside [0, 2047]? Laid along the 128 columns. -/
def maskF (col : IVec S1000000x1 32) : IVec S1000000x128 1 :=
  broadcastInDim S1000000x128 ![0] bcast_S1000000_S1000000x128_0
    (Host.reduce IntOp.andi
      (andi (cmpi .sge col (broadcastInDim S1000000x1 ![] bcast_S_S1000000x1 (constantI S_ 32 0#32)))
        (cmpi .sle col (broadcastInDim S1000000x1 ![0, 1] bcast_S1x1_S1000000x1_0_1
          (broadcastInDim S1x1 ![1] bcast_S1_S1x1_1 (constantI S1 32 2047#32)))))
      (constantI S_ 1 1#1) reducesTo_S1000000x1_S1000000_d1 h_S_)

/-- jnp.take of the rows of a 2048-row table at the feature indices. -/
def takeF (ff : IVec S1000000 32) (T : FVec F S2048x128 .f32) : FVec F S1000000x128 .f32 :=
  select (maskF (colF ff)) (Host.gather gather_S2048x128_S1000000x1_S1000000x128_1_0_n_n_0_1_1128 T (colF ff))
    (broadcastInDim S1000000x128 ![] bcast_S_S1000000x128 (constant S_ .f32 0x7FC00000#32))

/-- A key's value indices moved into [0, 64) where negative, as a column of start indices. -/
def colV (val : IVec S125000 32) : IVec S125000x1 32 :=
  broadcastInDim S125000x1 ![0] bcast_S125000_S125000x1_0
    (select (cmpi .slt val (broadcastInDim S125000 ![] bcast_S_S125000 (constantI S_ 32 0#32)))
      (addi val (broadcastInDim S125000 ![] bcast_S_S125000 (constantI S_ 32 64#32))) val)

/-- Row by row: is the moved value index inside [0, 63]? Laid along the 128 columns. -/
def maskV (col : IVec S125000x1 32) : IVec S125000x128 1 :=
  broadcastInDim S125000x128 ![0] bcast_S125000_S125000x128_0
    (Host.reduce IntOp.andi
      (andi (cmpi .sge col (broadcastInDim S125000x1 ![] bcast_S_S125000x1 (constantI S_ 32 0#32)))
        (cmpi .sle col (broadcastInDim S125000x1 ![0, 1] bcast_S1x1_S125000x1_0_1
          (broadcastInDim S1x1 ![1] bcast_S1_S1x1_1 (constantI S1 32 63#32)))))
      (constantI S_ 1 1#1) reducesTo_S125000x1_S125000_d1 h_S_)

/-- jnp.take of the rows of a 64-row table at a key's value indices. -/
def takeV (val : IVec S125000 32) (T : FVec F S64x128 .f32) : FVec F S125000x128 .f32 :=
  select (maskV (colV val)) (Host.gather gather_S64x128_S125000x1_S125000x128_1_0_n_n_0_1_1128 T (colV val))
    (broadcastInDim S125000x128 ![] bcast_S_S125000x128 (constant S_ .f32 0x7FC00000#32))

/-- A key's target rows moved into [0, 1000000) where negative, as a column of scatter indices. -/
def colI (idx : IVec S125000 32) : IVec S125000x1 32 :=
  broadcastInDim S125000x1 ![0] bcast_S125000_S125000x1_0
    (select (cmpi .slt idx (broadcastInDim S125000 ![] bcast_S_S125000 (constantI S_ 32 0#32)))
      (addi idx (broadcastInDim S125000 ![] bcast_S_S125000 (constantI S_ 32 1000000#32))) idx)

/-- The fixed contribution: the rows of fixed_table · W_fixed taken at the feature indices. -/
def fixedPart (ff : IVec S1000000 32) (ft : FVec F S2048x128 .f32) (Wf : FVec F S128x128 .f32) : FVec F S1000000x128 .f32 :=
  takeF ff (Host.dotGeneral dot_S2048x128_S128x128_S2048x128_1_0_0_1_n_n (some .fp32) ft Wf)

/-- A key's update rows: the rows of tab · W_sparse taken at the key's value indices. -/
def keyRows (val : IVec S125000 32) (tab : FVec F S64x128 .f32) (Ws : FVec F S128x128 .f32) : FVec F S125000x128 .f32 :=
  takeV val (Host.dotGeneral dot_S64x128_S128x128_S64x128_1_0_0_1_n_n (some .fp32) tab Ws)

/-- One key's pass: its update rows written over the rows its indices name. -/
def keyPass (acc : FVec F S1000000x128 .f32) (idx val : IVec S125000 32) (tab : FVec F S64x128 .f32) (Ws : FVec F S128x128 .f32) :
    FVec F S1000000x128 .f32 :=
  Host.scatter scatter_S1000000x128_S125000x1_S125000x128_1_0_0_1 (fun _ b => b) acc (colI idx) (keyRows val tab Ws)

/-- The sparse contribution: the four keys' passes, in key order, over a table of zeros. -/
def sparsePart (i0 v0 i1 v1 i2 v2 i3 v3 : IVec S125000 32) (t0 t1 t2 t3 : FVec F S64x128 .f32) (Ws : FVec F S128x128 .f32) :
    FVec F S1000000x128 .f32 :=
  keyPass (keyPass (keyPass (keyPass
    (broadcastInDim S1000000x128 ![] bcast_S_S1000000x128 (constant S_ .f32 0x00000000#32)) i0 v0 t0 Ws) i1 v1 t1 Ws) i2 v2 t2 Ws) i3 v3 t3 Ws

end Terms

end Cert.Bridge.KernelHost

end
-- ==== Proof.KernelHost.lean ====
/-
  The arrays the merge region of the kernel finds: what the host operations before it leave in the three operands
  of the region — the fixed contribution, the sparse contribution and the bias as a row — are the functions of
  HostTerms.lean of the arguments.

  The contents of a buffer after the host operations are computed operation by operation; a buffer's contents are
  carried at the buffer's own type, which for a literal buffer is the type of the value by computation.
-/
import proofs.«412707_j52621939310811_3_alg».proof.Proof.Gen.KernelIdeal.Frame
import proofs.«412707_j52621939310811_3_alg».proof.Proof.HostTerms
import Idealize.ShloMosaic.Lib.StableHlo.Run
import Idealize.ShloMosaic.Lib.Tactic

set_option maxRecDepth 16384

noncomputable section

namespace Cert.Bridge.KernelHost

open Cert.KernelIdeal
open Idealize.ShloMosaic Idealize.ShloMosaic.TcCoe Idealize.ShloMosaic.Tactic Idealize.SL.Sem Idealize.ShloMosaic.StableHlo
open Cert.KernelIdeal.Gen

/-- Contents written at a buffer's type and read back at the value's type are the contents. -/
theorem ofBuf_toBuf {T : BufTy} {Val : EltTy → Type} (x : TRef sig T) (v : T.Contents Val) : x.ofBuf (x.toBuf v) = v := by
  simp only [TRef.ofBuf, TRef.toBuf, cast_cast, cast_eq]

variable {F : FTy → Type} [FloatOps F]

/-- At the three operand buffers of the region the buffer's type is the value's type. -/
theorem toBuf_fixed (y : S1000000x128.Idx → Elt F .f32) :
    ((TRef.of main_call0_v5 : TRef sig ⟨S1000000x128, .f32⟩).toBuf (Val := Elt F) y : S1000000x128.Idx → Elt F .f32) = y := rfl
theorem toBuf_sparse (y : S1000000x128.Idx → Elt F .f32) :
    ((TRef.of main_call0_v38 : TRef sig ⟨S1000000x128, .f32⟩).toBuf (Val := Elt F) y : S1000000x128.Idx → Elt F .f32) = y := rfl

variable (m : (ℓ : Loc nD τ sig) → Buf (Elt F) ℓ)

set_option maxHeartbeats 4000000 in
/-- The region's first operand is the fixed contribution of the arguments. -/
theorem V_fixed (c : Dev nD) : (V m c main_call0_v5 : S1000000x128.Idx → Elt F .f32)
    = fixedPart (m ((c : Thread nD τ).loc main_arg0)) (m ((c : Thread nD τ).loc main_arg9)) (m ((c : Thread nD τ).loc main_arg14)) := by
  have h : (V m c main_call0_v5 : S1000000x128.Idx → Elt F .f32)
      = (TRef.of main_call0_v5 : TRef sig ⟨S1000000x128, .f32⟩).toBuf (Val := Elt F)
          (fixedPart (m ((c : Thread nD τ).loc main_arg0)) (m ((c : Thread nD τ).loc main_arg9)) (m ((c : Thread nD τ).loc main_arg14))) := by
    dsimp only [Gen.V, Gen.hostOps0]
    after_results_simp
    simp only [ofBuf_toBuf]
    unfold fixedPart takeF maskF colF
    rfl
  exact h.trans (toBuf_fixed _)

set_option maxHeartbeats 4000000 in
/-- The region's second operand is the sparse contribution of the arguments. -/
theorem V_sparse (c : Dev nD) : (V m c main_call0_v38 : S1000000x128.Idx → Elt F .f32)
    = sparsePart (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg15)) := by
  have h : (V m c main_call0_v38 : S1000000x128.Idx → Elt F .f32)
      = (TRef.of main_call0_v38 : TRef sig ⟨S1000000x128, .f32⟩).toBuf (Val := Elt F)
          (sparsePart (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13)) (m ((c : Thread nD τ).loc main_arg15))) := by
    dsimp only [Gen.V, Gen.hostOps0]
    after_results_simp
    simp only [ofBuf_toBuf]
    unfold sparsePart keyPass keyRows takeV maskV colV colI
    rfl
  exact h.trans (toBuf_sparse _)

set_option maxHeartbeats 4000000 in
/-- The region's third operand is the bias as a 1 × 128 row. -/
theorem V_bias (c : Dev nD) : (V m c main_call0_v39 : S1x128.Idx → Elt F .f32)
    = shapeCast S1x128 (m ((c : Thread nD τ).loc main_arg16)) Cert.KernelIdeal.Facts₀.shapeCasts_S128_S1x128 := by
  dsimp only [Gen.V, Gen.hostOps0]
  after_results_simp
  rfl

end Cert.Bridge.KernelHost

end
-- ==== Proof.KernelValue.lean ====
/-
  The kernel's result table, whole. The merge region walks the million rows in 125 blocks of 8000 rows; at each block
  its body adds the block of the fixed contribution, the block of the sparse contribution and the one bias row, laid
  under every row. The blocks tile the table, so after the run entry (n, e) of the result is
  fixed (n, e) + sparse (n, e) + bias (0, e) of the three arrays the region finds.
-/
import proofs.«412707_j52621939310811_3_alg».proof.Proof.Gen.KernelIdeal.Value
import Idealize.ShloMosaic.Lib.Pipeline.Value

set_option maxRecDepth 16384

noncomputable section

namespace Cert.Bridge.KernelValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The entry of the bias row under entry i of the table: row 0, i's column. -/
abbrev biasIdx (i : S1000000x128.Idx) : S1x128.Idx := fun a => match a with
  | ⟨0, _⟩ => ⟨0, Nat.one_pos⟩
  | ⟨1, _⟩ => ⟨(i 1).val, (i 1).isLt⟩

/-- The merged table: fixed + sparse + the bias row under every row. -/
abbrev merged (fc sc : S1000000x128.Idx → Elt F .f32) (b2 : S1x128.Idx → Elt F .f32) : S1000000x128.Idx → Elt F .f32 :=
  fun i => FloatOps.addf (FloatOps.addf (fc i) (sc i)) (b2 (biasIdx i))

/-- The printed index maps over the 125 grid points: the two table operands move with the result, block t holding
    rows 8000 t …; the bias row stays. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block of the merged table: the body's sum over the blocks of any three arrays at point t is the merged table of
    those arrays, read through the result's block. -/
theorem block_eq (A0 A1 : S1000000x128.Idx → Elt F .f32) (A2 : S1x128.Idx → Elt F .f32) (t : Fin cfg0.N) (j : S8000x128.Idx) :
    Value.E3 (((cfg0.win 0).blk t).view.read (Elt F) A0) (((cfg0.win 1).blk t).view.read (Elt F) A1)
        (((cfg0.win 2).blk t).view.read (Elt F) A2) j
      = merged A0 A1 A2 (((cfg0.win 3).blk t).view.emb j) := by
  obtain ⟨e0, e1, e2, e3, e4, e5, e6, e7⟩ := idx_facts t
  show FloatOps.addf (FloatOps.addf (A0 (((cfg0.win 0).blk t).view.emb (Value.ix3_0 j)))
        (A1 (((cfg0.win 1).blk t).view.emb (Value.ix3_1 j))))
      (A2 (((cfg0.win 2).blk t).view.emb (Value.ix3_2 j)))
    = FloatOps.addf (FloatOps.addf (A0 (((cfg0.win 3).blk t).view.emb j)) (A1 (((cfg0.win 3).blk t).view.emb j)))
      (A2 (biasIdx (((cfg0.win 3).blk t).view.emb j)))
  have h0 : ((cfg0.win 0).blk t).view.emb (Value.ix3_0 j) = ((cfg0.win 3).blk t).view.emb j := by
    funext a; apply Fin.ext
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb (Value.ix3_1 j) = ((cfg0.win 3).blk t).view.emb j := by
    funext a; apply Fin.ext
    match a with
    | ⟨0, _⟩ => show win0_1.index t (0 : Fin 2) * 8000 + 1 * (j 0).val = win0_3.index t (0 : Fin 2) * 8000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb (Value.ix3_2 j) = biasIdx (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [h0, h1, h2]

/-- WHAT POINT t WRITES BACK is block t of the merged table of the arrays the region finds. -/
theorem flushed_eq (c : Dev nD) (t : Fin cfg0.N) :
    (dats m 0 c).flushed 3 t
      = ((cfg0.win 3).blk t).view.read (Elt F)
          (merged (V m c (Pipeline.arrRef spec0 0)) (V m c (Pipeline.arrRef spec0 1)) (V m c (Pipeline.arrRef spec0 2))) := by
  rw [Value.flushed3]
  unfold out0_3
  simp only [View.ld_unit_zero (S := S8000x128) hz, View.ld_unit_zero (S := S1x128) hz]
  funext j
  refine (Value.canon3_eq (iblk m c 0 t) (iblk m c 1 t) (iblk m c 2 t) j).trans ?_
  exact block_eq (V m c (Pipeline.arrRef spec0 0)) (V m c (Pipeline.arrRef spec0 1)) (V m c (Pipeline.arrRef spec0 2)) t j

/-- An entry is in point t's block iff each coordinate is in the block's range on its axis. -/
theorem mem_blk (t : Fin cfg0.N) (i : S1000000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v0).slice (win0_3.rect t)).set ↔ _
  rw [View.set_slice_whole, Rect.mem_set_unit]
  exact Iff.rfl

/-- The blocks tile the table: row n is in block n / 8000. -/
theorem cover (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  have ht : (i 0).val / 8000 < 125 := by omega
  refine ⟨⟨(i 0).val / 8000, ht⟩, flush0_3 _, ?_⟩
  rw [mem_blk]
  obtain ⟨-, -, -, -, -, -, e6, e7⟩ := idx_facts ⟨(i 0).val / 8000, ht⟩
  have e6' : win0_3.index ⟨(i 0).val / 8000, ht⟩ (0 : Fin 2) = (i 0).val / 8000 := e6
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    omega
  | ⟨1, _⟩ =>
    show win0_3.index ⟨(i 0).val / 8000, ht⟩ (1 : Fin 2) * 128 ≤ (i 1).val
      ∧ (i 1).val < win0_3.index ⟨(i 0).val / 8000, ht⟩ (1 : Fin 2) * 128 + 128
    omega

/-- THE RESULT TABLE after the run is the merged table of the arrays the region finds. -/
theorem final (c : Dev nD) :
    (dats m 0 c).arrAt 3 cfg0.N = merged (V m c (Pipeline.arrRef spec0 0)) (V m c (Pipeline.arrRef spec0 1)) (V m c (Pipeline.arrRef spec0 2)) :=
  (dats m 0 c).arrAt_eq_of_cover 3 _ (fun t _ => flushed_eq m c t) cover

/-- The kernel's run: it terminates with the result at the merged table and the arguments unchanged. -/
theorem run : θ_run defs (onTc (τ := τ) (main (F := F))) ⟨m, fun _ => 0, ρ⟩ fun r => ∀ c : Dev nD,
      r.2.mem ((c : Thread nD τ).loc main_v0) = merged (V m c (Pipeline.arrRef spec0 0)) (V m c (Pipeline.arrRef spec0 1)) (V m c (Pipeline.arrRef spec0 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.Bridge.KernelValue

end
-- ==== Proof.Words.lean ====
/-
  Index words in range.

  A 32-bit index word a that passes the two tests "a ≥ 0" and "a < K" reads, signed, as a number of [0, K). For such a
  word jnp's index normalisation (add K where negative) leaves it alone, the fill test of jnp.take (0 ≤ a ≤ K - 1)
  passes, and the clamp of a gather into [0, K - 1] is the identity. A reduce by "and" from 1 over a mask that is 1
  everywhere is 1.
-/
import Idealize.ShloMosaic.Lib.StableHlo.Predicate
import Idealize.ShloMosaic.Lib.ReduceAll
import Idealize.ShloMosaic.Lib.Affine

namespace Cert.Bridge.Words

open Idealize.ShloMosaic Idealize.ShloMosaic.StableHlo.Predicate

theorem zero_toInt : (0#32 : BitVec 32).toInt = 0 := by decide

/-- A word that passes "a ≥ 0" and "a < K" reads, signed, inside [0, K). -/
theorem range_of_tests (a : BitVec 32) (K : Nat) (hK : K < 2 ^ 31)
    (h0 : IntOp.cmpi .sge a 0#32 = 1#1) (h1 : IntOp.cmpi .slt a (BitVec.ofNat 32 K) = 1#1) :
    0 ≤ a.toInt ∧ a.toInt < (K : Int) := by
  unfold IntOp.cmpi at h0 h1
  rw [ofBool_eq_one_iff] at h0 h1
  simp only [BitVec.sle, BitVec.slt, decide_eq_true_eq, zero_toInt, toInt_ofNat_small K hK] at h0 h1
  exact ⟨h0, h1⟩

/-- A word that reads non-negative is not below zero. -/
theorem slt_zero_eq (a : BitVec 32) (h : 0 ≤ a.toInt) : IntOp.cmpi .slt a 0#32 = 0#1 := by
  unfold IntOp.cmpi
  have : a.slt 0#32 = false := by
    simp only [BitVec.slt, zero_toInt, decide_eq_false_iff_not]
    omega
  rw [this]
  rfl

/-- So the index normalisation "a + K where a < 0" leaves it alone. -/
theorem wrap_eq (a b : BitVec 32) (h : 0 ≤ a.toInt) : Scalar.select (IntOp.cmpi .slt a 0#32) b a = a := by
  rw [slt_zero_eq a h]
  unfold Scalar.select
  exact if_neg (by decide)

/-- A word that reads inside [0, hi] passes the fill test "0 ≤ a ∧ a ≤ hi". -/
theorem tests_of_range (a : BitVec 32) (hi : Nat) (hhi : hi < 2 ^ 31) (h : 0 ≤ a.toInt ∧ a.toInt ≤ (hi : Int)) :
    IntOp.andi (IntOp.cmpi .sge a 0#32) (IntOp.cmpi .sle a (BitVec.ofNat 32 hi)) = 1#1 := by
  rw [IntOp.andi_eq_one]
  unfold IntOp.cmpi
  simp only [ofBool_eq_one_iff, BitVec.sle, decide_eq_true_eq, zero_toInt, toInt_ofNat_small hi hhi]
  exact h

/-- A left fold of "and" from 1 over ones is 1. -/
theorem foldl_andi_ones {ι : Type} (g : ι → BitVec 1) (l : List ι) (acc : BitVec 1) (hacc : acc = 1#1)
    (hg : ∀ n, g n = 1#1) : l.foldl (fun r n => IntOp.andi r (g n)) acc = 1#1 := by
  induction l generalizing acc with
  | nil => exact hacc
  | cons a l ih =>
    rw [List.foldl_cons]
    exact ih _ (by rw [hacc, hg a]; decide)

/-- A reduce by "and" from 1 of a mask that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  exact foldl_andi_ones (fun n => x (s.rowMajor.symm n)) _ _ (hinit _) (fun n => hx _)

end Cert.Bridge.Words
-- ==== Proof.Domain.lean ====
/-
  The index ranges, read off the precondition: every fixed-feature index lies in [0, 2048) and every value index of
  the four sparse keys lies in [0, 64). The precondition is a conjunction of scalar tests, each "all" of a mask; the
  five last ones are the range tests "0 ≤ x ∧ x < K" of an index vector.
-/
import proofs.«412707_j52621939310811_3_alg».proof.Pre_finite_inputs
import proofs.«412707_j52621939310811_3_alg».proof.Proof.Words
import Idealize.ShloMosaic.Lib.ValueIdx

noncomputable section

namespace Cert.Bridge.Domain

open Idealize.ShloMosaic Idealize.ShloMosaic.ValueIdx

instance : Subsingleton (⟨0, ![]⟩ : Shape).Idx := ⟨fun _ _ => funext fun d => d.elim0⟩

/-- "all (0 ≤ x ∧ x < K)" of an index vector says every entry reads, signed, inside [0, K). -/
theorem all_in_range {s : Shape} {axes : List (Fin s.rank)} (x : IVec s 32) (K : Nat) (hK : K < 2 ^ 31)
    (b0 : (⟨0, ![]⟩ : Shape).BroadcastsInDim s ![]) (hred : s.ReducesTo axes ⟨0, ![]⟩) (hu : 0 < (⟨0, ![]⟩ : Shape).numel)
    (h : Host.reduce IntOp.andi
        (andi (cmpi .sge x (broadcastInDim s ![] b0 (constantI ⟨0, ![]⟩ 32 0#32)))
          (cmpi .slt x (broadcastInDim s ![] b0 (constantI ⟨0, ![]⟩ 32 (BitVec.ofNat 32 K)))))
        (constantI ⟨0, ![]⟩ 1 1#1) hred hu ix0 = 1#1) (i : s.Idx) :
    0 ≤ (x i).toInt ∧ (x i).toInt < (K : Int) := by
  have hi := Host.reduce_andi_all _ _ hred hu ix0 h i
  change IntOp.andi (IntOp.cmpi .sge (x i) 0#32) (IntOp.cmpi .slt (x i) (BitVec.ofNat 32 K)) = 1#1 at hi
  obtain ⟨h0, h1⟩ := IntOp.andi_eq_one.1 hi
  exact Words.range_of_tests (x i) K hK h0 h1

open Cert.Pre_finite_inputs Cert.Pre_finite_inputs.Facts in
/-- THE RANGES: what the precondition says of the five index inputs the programs gather with. -/
theorem ranges_of_pre [Cert.Pre_finite_inputs.Facts] {F : FTy → Type} [FloatOps F]
    (a0 : IVec S1000000 32) (a1 a2 a3 a4 a5 a6 a7 a8 : IVec S125000 32) (a9 : FVec F S2048x128 .f32)
    (a10 a11 a12 a13 : FVec F S64x128 .f32) (a14 a15 : FVec F S128x128 .f32) (a16 : FVec F S128 .f32)
    (h : Cert.Pre_finite_inputs.fn (F := F) a0 a1 a2 a3 a4 a5 a6 a7 a8 a9 a10 a11 a12 a13 a14 a15 a16 = fun _ => 1#1) :
    (∀ i, 0 ≤ (a0 i).toInt ∧ (a0 i).toInt < 2048) ∧ (∀ i, 0 ≤ (a2 i).toInt ∧ (a2 i).toInt < 64)
    ∧ (∀ i, 0 ≤ (a4 i).toInt ∧ (a4 i).toInt < 64) ∧ (∀ i, 0 ≤ (a6 i).toInt ∧ (a6 i).toInt < 64)
    ∧ (∀ i, 0 ≤ (a8 i).toInt ∧ (a8 i).toInt < 64) := by
  have e := congrFun h ix0
  unfold Cert.Pre_finite_inputs.fn Cert.Pre_finite_inputs.fn_part1 Cert.Pre_finite_inputs.fn_part2
    Cert.Pre_finite_inputs.fn_part3 Cert.Pre_finite_inputs.fn_part4 at e
  dsimp only at e
  change IntOp.andi _ _ = 1#1 at e
  obtain ⟨e, h8⟩ := IntOp.andi_eq_one.1 e
  change IntOp.andi _ _ = 1#1 at e
  obtain ⟨e, h6⟩ := IntOp.andi_eq_one.1 e
  change IntOp.andi _ _ = 1#1 at e
  obtain ⟨e, h4⟩ := IntOp.andi_eq_one.1 e
  change IntOp.andi _ _ = 1#1 at e
  obtain ⟨e, h2⟩ := IntOp.andi_eq_one.1 e
  change IntOp.andi _ _ = 1#1 at e
  obtain ⟨-, h0⟩ := IntOp.andi_eq_one.1 e
  exact ⟨all_in_range a0 2048 (by norm_num) _ _ _ h0, all_in_range a2 64 (by norm_num) _ _ _ h2,
    all_in_range a4 64 (by norm_num) _ _ _ h4, all_in_range a6 64 (by norm_num) _ _ _ h6,
    all_in_range a8 64 (by norm_num) _ _ _ h8⟩

end Cert.Bridge.Domain

end
-- ==== Proof.LibRowScatter.lean ====
/-
  Row gathers and row scatters of a rank-2 table, read at an entry.

  A scatter whose body returns the update is a left fold of overwriting steps over the update positions in row-major
  order, so an entry ends with the update of the LAST position that lands on it, or with the operand's element when no
  position lands on it. For the scatter that writes whole rows (x.at[idx].set(rows)) every entry of result row n is
  decided by the same update row: the last row j whose index, read signed, is n. Hence such a scatter commutes with
  any map applied row by row. The gather that takes whole rows (x[idx]) reads row min (idx j) (V - 1) of the table.

  Nothing here asks the indices to be distinct or in range.
-/
import Idealize.ShloMosaic.Lib.ValueIdx
import Mathlib.Data.List.Sort
import Mathlib.Data.Finset.Max

noncomputable section

namespace Cert.LibRowScatter

open Idealize.ShloMosaic Idealize.ShloMosaic.ValueIdx

/-! ## A fold of overwriting steps, read at an entry -/

section Fold
variable {ι κ α : Type} [DecidableEq κ]

/-- One overwriting step: position n replaces the entry g n by v n, and does nothing when g n is no entry. -/
def put (g : ι → Option κ) (v : ι → α) (r : κ → α) (n : ι) : κ → α :=
  match g n with
  | some i => fun i' => if i' = i then v n else r i'
  | none => r

theorem put_of_ne (g : ι → Option κ) (v : ι → α) (r : κ → α) (n : ι) (i' : κ) (h : g n ≠ some i') :
    put g v r n i' = r i' := by
  unfold put
  cases hg : g n with
  | none => rfl
  | some i => exact if_neg (fun e => h (by rw [hg, e]))

theorem put_of_eq (g : ι → Option κ) (v : ι → α) (r : κ → α) (n : ι) (i' : κ) (h : g n = some i') :
    put g v r n i' = v n := by
  unfold put
  rw [h]
  exact if_pos rfl

/-- An entry no position of the list lands on keeps its value. -/
theorem foldl_put_of_miss (g : ι → Option κ) (v : ι → α) (l : List ι) (x : κ → α) (i' : κ)
    (h : ∀ n ∈ l, g n ≠ some i') : l.foldl (put g v) x i' = x i' := by
  induction l generalizing x with
  | nil => rfl
  | cons a l ih =>
    rw [List.foldl_cons, ih _ (fun n hn => h n (List.mem_cons_of_mem _ hn)),
      put_of_ne g v x a i' (h a (List.mem_cons.2 (Or.inl rfl)))]

/-- The entry position a lands on holds v a after the fold when no later position lands there. -/
theorem foldl_put_of_last (g : ι → Option κ) (v : ι → α) (l₁ l₂ : List ι) (a : ι) (x : κ → α) (i' : κ)
    (ha : g a = some i') (h₂ : ∀ n ∈ l₂, g n ≠ some i') : (l₁ ++ a :: l₂).foldl (put g v) x i' = v a := by
  rw [List.foldl_append, List.foldl_cons, foldl_put_of_miss g v l₂ _ i' h₂, put_of_eq g v _ a i' ha]

end Fold

/-- The positions below K in order, cut at n: everything after n is larger. -/
theorem finRange_cut {K : Nat} (n : Fin K) : ∃ l₁ l₂, List.finRange K = l₁ ++ n :: l₂ ∧ ∀ b ∈ l₂, n < b := by
  obtain ⟨l₁, l₂, h⟩ := List.append_of_mem (List.mem_finRange n)
  refine ⟨l₁, l₂, h, ?_⟩
  have hs : (List.finRange K).Pairwise (· < ·) := (List.sortedLT_finRange K).pairwise
  rw [h] at hs
  exact fun b hb => (List.pairwise_cons.1 (List.pairwise_append.1 hs).2.1).1 b hb

/-! ## A "set" scatter read at an entry -/

section Scatter
variable {s si u : Shape} {α : Type} {w : Nat}

theorem scatter_set_eq_foldl (d : ScatterDims s si u) (x : s.Idx → α) (idx : IVec si w) (upd : u.Idx → α) :
    Host.scatter d (fun _ b => b) x idx upd
      = (List.finRange u.numel).foldl
          (put (fun n => d.resultIdx? (u.rowMajor.symm n) idx) (fun n => upd (u.rowMajor.symm n))) x := by
  unfold Host.scatter
  congr 1
  funext r n
  unfold put
  beta_reduce
  cases d.resultIdx? (u.rowMajor.symm n) idx <;> rfl

/-- An entry no update lands on holds the operand's element. -/
theorem scatter_set_of_miss (d : ScatterDims s si u) (x : s.Idx → α) (idx : IVec si w) (upd : u.Idx → α)
    (i' : s.Idx) (h : ∀ j, d.resultIdx? j idx ≠ some i') :
    Host.scatter d (fun _ b => b) x idx upd i' = x i' := by
  rw [scatter_set_eq_foldl]
  exact foldl_put_of_miss _ _ _ x i' (fun n _ => h _)

/-- The entry update index j lands on holds upd j when no update index later in row-major order lands there. -/
theorem scatter_set_of_last (d : ScatterDims s si u) (x : s.Idx → α) (idx : IVec si w) (upd : u.Idx → α)
    (i' : s.Idx) (j : u.Idx) (hj : d.resultIdx? j idx = some i')
    (hlast : ∀ j', u.rowMajor j < u.rowMajor j' → d.resultIdx? j' idx ≠ some i') :
    Host.scatter d (fun _ b => b) x idx upd i' = upd j := by
  rw [scatter_set_eq_foldl]
  obtain ⟨l₁, l₂, hl, hgt⟩ := finRange_cut (u.rowMajor j)
  rw [hl, foldl_put_of_last _ _ l₁ l₂ (u.rowMajor j) x i' (by rw [Equiv.symm_apply_apply]; exact hj)
    (fun n hn => hlast _ (by rw [Equiv.apply_symm_apply]; exact hgt n hn)), Equiv.symm_apply_apply]

end Scatter

/-! ## The scatter that writes whole rows, and the gather that takes whole rows -/

/-- A rank-2 shape's axes are its first and its second. -/
theorem axis2 {d : Fin 2 → Nat} (a : Fin (⟨2, d⟩ : Shape).rank) : a = 0 ∨ a = 1 := by
  have h : a.val < 2 := a.isLt
  rcases (by omega : a.val = 0 ∨ a.val = 1) with e | e
  · exact Or.inl (Fin.ext e)
  · exact Or.inr (Fin.ext e)

theorem fin2_one_ne_zero : (1 : Fin 2) ≠ 0 := by decide

/-- An axis is not among the axes kept after dropping it. -/
theorem not_mem_kept_single {s : Shape} (a : Fin s.rank) : a ∉ s.kept [a] := by
  unfold Shape.kept
  intro h
  have := (List.mem_filter.1 h).2
  simp at this

/-- Another axis is kept. -/
theorem mem_kept_single {s : Shape} {a b : Fin s.rank} (h : b ≠ a) : b ∈ s.kept [a] := by
  unfold Shape.kept
  exact List.mem_filter.2 ⟨List.mem_finRange b, by simpa using h⟩

section Rows
variable {N M C : Nat} {w : Nat}

/-- The dimension numbers of x.at[idx].set(rows): an [N, C] operand, an [M, 1] column of row indices, [M, C] updates;
    update row j goes, whole, to operand row idx j. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand row update row j lands on: its index read signed, when that is a row of the operand. -/
def landRow (N : Nat) (idx : IVec ⟨2, ![M, 1]⟩ w) (j : Fin M) : Option (Fin N) :=
  if h : 0 ≤ (idx (ix2 j 0)).toInt ∧ (idx (ix2 j 0)).toInt < (N : Int) then
    some ⟨(idx (ix2 j 0)).toInt.toNat, by omega⟩
  else none

/-- Update entry (j, c) lands on entry (landRow j, c), and is dropped when row j's index is no row. -/
theorem resultIdx_rows (wf : ScatterDims.WF ⟨2, ![N, C]⟩ ⟨2, ![M, 1]⟩ ⟨2, ![M, C]⟩ [1] [0] [0] 1)
    (idx : IVec ⟨2, ![M, 1]⟩ w) (j : Fin M) (c : Fin C) :
    (rowsDims N M C wf).resultIdx? (ix2 j c) idx = (landRow N idx j).map (fun n => ix2 n c) := by
  have hs0 : (rowsDims N M C wf).start (ix2 j c) idx 0 = (idx (ix2 j 0)).toInt := by
    have hm : (0 : Fin (⟨2, ![N, C]⟩ : Shape).rank) ∈ (rowsDims N M C wf).scatterDimsToOperandDims :=
      List.mem_singleton.mpr rfl
    unfold ScatterDims.start
    rw [dif_pos hm]
    have hsi : (rowsDims N M C wf).siIdx (ix2 j c) ⟨List.idxOf (0 : Fin (⟨2, ![N, C]⟩ : Shape).rank) (rowsDims N M C wf).scatterDimsToOperandDims,
          List.idxOf_lt_length_iff.2 hm⟩ = ix2 j 0 := by
      funext b; refine Fin.ext ?_
      match b with
      | ⟨0, _⟩ => rfl
      | ⟨1, _⟩ => rfl
    rw [hsi]
  have hs1 : (rowsDims N M C wf).start (ix2 j c) idx 1 = 0 := by
    have hm : (1 : Fin (⟨2, ![N, C]⟩ : Shape).rank) ∉ (rowsDims N M C wf).scatterDimsToOperandDims :=
      fun h => fin2_one_ne_zero (List.mem_singleton.mp h)
    unfold ScatterDims.start
    rw [dif_neg hm]
  have hw0 : (rowsDims N M C wf).window (ix2 j c) 0 = 0 := by
    have hm : (0 : Fin (⟨2, ![N, C]⟩ : Shape).rank) ∉ (rowsDims N M C wf).sKept := not_mem_kept_single _
    unfold ScatterDims.window
    rw [dif_neg hm]
  have hw1 : (rowsDims N M C wf).window (ix2 j c) 1 = c.val := by
    have hm : (1 : Fin (⟨2, ![N, C]⟩ : Shape).rank) ∈ (rowsDims N M C wf).sKept := mem_kept_single fin2_one_ne_zero
    unfold ScatterDims.window
    rw [dif_pos hm]
    rfl
  have hc := c.isLt
  unfold ScatterDims.resultIdx? landRow
  by_cases hin : 0 ≤ (idx (ix2 j 0)).toInt ∧ (idx (ix2 j 0)).toInt < (N : Int)
  · have hall : ∀ a, 0 ≤ (rowsDims N M C wf).start (ix2 j c) idx a + (rowsDims N M C wf).window (ix2 j c) a
        ∧ (rowsDims N M C wf).start (ix2 j c) idx a + (rowsDims N M C wf).window (ix2 j c) a < (⟨2, ![N, C]⟩ : Shape).size a := by
      intro a
      rcases axis2 a with rfl | rfl
      · rw [hs0, hw0]
        show _ ∧ _ < ((N : Nat) : Int)
        omega
      · rw [hs1, hw1]
        show _ ∧ _ < ((C : Nat) : Int)
        omega
    rw [dif_pos hall, dif_pos hin]
    show some _ = some _
    congr 1
    funext a
    refine Fin.ext ?_
    show ((rowsDims N M C wf).start (ix2 j c) idx a + (rowsDims N M C wf).window (ix2 j c) a).toNat = _
    rcases axis2 a with rfl | rfl
    · rw [hs0, hw0]
      show ((idx (ix2 j 0)).toInt + ((0 : Nat) : Int)).toNat = (idx (ix2 j 0)).toInt.toNat
      omega
    · rw [hs1, hw1]
      show ((0 : Int) + (c.val : Int)).toNat = c.val
      omega
  · rw [dif_neg hin, dif_neg]
    · rfl
    · intro hall
      have h0 := hall 0
      rw [hs0, hw0] at h0
      have h0' : 0 ≤ (idx (ix2 j 0)).toInt + ((0 : Nat) : Int) ∧ (idx (ix2 j 0)).toInt + ((0 : Nat) : Int) < ((N : Nat) : Int) := h0
      exact hin (by omega)

/-- The last update row that lands on operand row n, when there is one. -/
def lastHit (N : Nat) (idx : IVec ⟨2, ![M, 1]⟩ w) (n : Fin N) : Option (Fin M) :=
  if h : (Finset.univ.filter fun j : Fin M => landRow N idx j = some n).Nonempty then
    some ((Finset.univ.filter fun j : Fin M => landRow N idx j = some n).max' h)
  else none

theorem lastHit_some {idx : IVec ⟨2, ![M, 1]⟩ w} {n : Fin N} {j : Fin M} (h : lastHit N idx n = some j) :
    landRow N idx j = some n ∧ ∀ j', landRow N idx j' = some n → j' ≤ j := by
  unfold lastHit at h
  split at h
  · rename_i hne
    have hj := Option.some.inj h
    subst hj
    exact ⟨(Finset.mem_filter.1 (Finset.max'_mem _ hne)).2,
      fun j' hj' => Finset.le_max' _ j' (Finset.mem_filter.2 ⟨Finset.mem_univ _, hj'⟩)⟩
  · cases h

theorem lastHit_none {idx : IVec ⟨2, ![M, 1]⟩ w} {n : Fin N} (h : lastHit N idx n = none) (j : Fin M) :
    landRow N idx j ≠ some n := by
  unfold lastHit at h
  split at h
  · cases h
  · rename_i hne
    exact fun hj => hne ⟨j, Finset.mem_filter.2 ⟨Finset.mem_univ _, hj⟩⟩

/-- THE ROW SCATTER READ AT (n, c): row n of the result is the update row that landed on it last, and the operand's
    row when none did; which one does not depend on the column, nor on what the rows hold. -/
theorem scatter_rows_apply {α : Type} (wf : ScatterDims.WF ⟨2, ![N, C]⟩ ⟨2, ![M, 1]⟩ ⟨2, ![M, C]⟩ [1] [0] [0] 1)
    (x : (⟨2, ![N, C]⟩ : Shape).Idx → α) (idx : IVec ⟨2, ![M, 1]⟩ w) (upd : (⟨2, ![M, C]⟩ : Shape).Idx → α)
    (n : Fin N) (c : Fin C) :
    Host.scatter (rowsDims N M C wf) (fun _ b => b) x idx upd (ix2 n c)
      = match lastHit N idx n with
        | none => x (ix2 n c)
        | some j => upd (ix2 j c) := by
  have land : ∀ (a : Fin M) (b : Fin C), (rowsDims N M C wf).resultIdx? (ix2 a b) idx = some (ix2 n c) →
      landRow N idx a = some n ∧ b = c := by
    intro a b hab
    rw [resultIdx_rows] at hab
    cases hl : landRow N idx a with
    | none => rw [hl] at hab; cases hab
    | some n' =>
      rw [hl] at hab
      have e : ix2 n' b = ix2 n c := Option.some.inj hab
      have e0 : n' = n := congrFun e 0
      have e1 : b = c := congrFun e 1
      exact ⟨by rw [e0], e1⟩
  cases hh : lastHit N idx n with
  | none =>
    refine scatter_set_of_miss _ x idx upd _ (fun j' hj' => ?_)
    obtain ⟨a, b, rfl⟩ : ∃ (a : Fin M) (b : Fin C), j' = ix2 a b := ⟨j' 0, j' 1, eq_ix2 j'⟩
    exact lastHit_none hh a (land a b hj').1
  | some j =>
    obtain ⟨hj, hmax⟩ := lastHit_some hh
    refine scatter_set_of_last _ x idx upd _ (ix2 j c) (by rw [resultIdx_rows, hj]; rfl) (fun j' hlt hj' => ?_)
    obtain ⟨a, b, rfl⟩ : ∃ (a : Fin M) (b : Fin C), j' = ix2 a b := ⟨j' 0, j' 1, eq_ix2 j'⟩
    obtain ⟨h0, h1⟩ := land a b hj'
    have hle : a.val ≤ j.val := Fin.le_def.1 (hmax _ h0)
    have hlt' := Fin.lt_def.1 hlt
    rw [Shape.rowMajor_val_two, Shape.rowMajor_val_two] at hlt'
    have hc : b.val = c.val := congrArg Fin.val h1
    have hmul : a.val * C ≤ j.val * C := Nat.mul_le_mul_right C hle
    change j.val * C + c.val < a.val * C + b.val at hlt'
    omega

/-- A ROW SCATTER COMMUTES WITH A MAP OF ROWS: applying Φ to every row of the scattered table is scattering the
    Φ-images of the update rows into the Φ-image of the operand. -/
theorem scatter_rows_map {α β : Type} {C' : Nat}
    (wf : ScatterDims.WF ⟨2, ![N, C]⟩ ⟨2, ![M, 1]⟩ ⟨2, ![M, C]⟩ [1] [0] [0] 1)
    (wf' : ScatterDims.WF ⟨2, ![N, C']⟩ ⟨2, ![M, 1]⟩ ⟨2, ![M, C']⟩ [1] [0] [0] 1)
    (Φ : (Fin C → α) → Fin C' → β)
    (x : (⟨2, ![N, C]⟩ : Shape).Idx → α) (idx : IVec ⟨2, ![M, 1]⟩ w) (upd : (⟨2, ![M, C]⟩ : Shape).Idx → α)
    (n : Fin N) (e : Fin C') :
    Φ (fun s => Host.scatter (rowsDims N M C wf) (fun _ b => b) x idx upd (ix2 n s)) e
      = Host.scatter (rowsDims N M C' wf') (fun _ b => b) (fun i => Φ (fun s => x (ix2 (i 0) s)) (i 1)) idx
          (fun p => Φ (fun s => upd (ix2 (p 0) s)) (p 1)) (ix2 n e) := by
  rw [scatter_rows_apply wf']
  simp only [scatter_rows_apply wf]
  cases lastHit N idx n <;> rfl

end Rows

section Take
variable {α : Type} {V R C w : Nat}

/-- The dimension numbers of x[idx] over an [V, C] table with an [R, 1] column of row indices: result row r is the
    table's row idx r. -/
abbrev takeRows (V R C : Nat) (wf : GatherDims.WF ⟨2, ![V, C]⟩ ⟨2, ![R, 1]⟩ ⟨2, ![R, C]⟩ [1] [0] [] [0] [] 1 ![1, C]) :
    GatherDims ⟨2, ![V, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, c): the table at row idx r — read signed and clamped into [0, V - 1] — and column c. -/
theorem gather_rows_apply (hV : 0 < V)
    (wf : GatherDims.WF ⟨2, ![V, C]⟩ ⟨2, ![R, 1]⟩ ⟨2, ![R, C]⟩ [1] [0] [] [0] [] 1 ![1, C])
    (x : (⟨2, ![V, C]⟩ : Shape).Idx → α) (idx : IVec ⟨2, ![R, 1]⟩ w) (r : Fin R) (c : Fin C) :
    Host.gather (takeRows V R C wf) x idx (ix2 r c)
      = x (ix2 ⟨min (idx (ix2 r 0)).toInt.toNat (V - 1), by omega⟩ c) := by
  unfold Host.gather
  congr 1
  funext a
  refine Fin.ext ?_
  show (takeRows V R C wf).start (ix2 r c) idx a + (takeRows V R C wf).batchCoord (ix2 r c) a
    + (takeRows V R C wf).offCoord (ix2 r c) a = _
  rw [GatherDims.batchCoord_eq_zero _ _ _ List.not_mem_nil, Nat.add_zero]
  rcases axis2 a with rfl | rfl
  · have ho : (takeRows V R C wf).offCoord (ix2 r c) 0 = 0 :=
      GatherDims.offCoord_eq_zero _ _ _ (fun h => ((GatherDims.mem_sKept _ _).mp h).1 (List.mem_singleton.mpr rfl))
    have hs : (takeRows V R C wf).start (ix2 r c) idx 0 = min (idx (ix2 r 0)).toInt.toNat (V - 1) := by
      have hm : (0 : Fin (⟨2, ![V, C]⟩ : Shape).rank) ∈ (takeRows V R C wf).startIndexMap := List.mem_singleton.mpr rfl
      unfold GatherDims.start
      rw [dif_pos hm]
      have hsi : (takeRows V R C wf).siIdx (ix2 r c) ⟨List.idxOf (0 : Fin (⟨2, ![V, C]⟩ : Shape).rank) (takeRows V R C wf).startIndexMap,
            List.idxOf_lt_length_iff.2 hm⟩ = ix2 r 0 := by
        funext b; refine Fin.ext ?_
        match b with
        | ⟨0, _⟩ => rfl
        | ⟨1, _⟩ => rfl
      rw [hsi]
      rfl
    rw [hs, ho]
    rfl
  · have hs : (takeRows V R C wf).start (ix2 r c) idx 1 = 0 := by
      have hm : (1 : Fin (⟨2, ![V, C]⟩ : Shape).rank) ∉ (takeRows V R C wf).startIndexMap :=
        fun h => fin2_one_ne_zero (List.mem_singleton.mp h)
      unfold GatherDims.start
      rw [dif_neg hm]
    have ho : (takeRows V R C wf).offCoord (ix2 r c) 1 = c.val := by
      have hm : (1 : Fin (⟨2, ![V, C]⟩ : Shape).rank) ∈ (takeRows V R C wf).sKept := mem_kept_single fin2_one_ne_zero
      unfold GatherDims.offCoord
      rw [dif_pos hm]
      rfl
    rw [hs, ho]
    exact Nat.zero_add _

end Take

end Cert.LibRowScatter

end
-- ==== Proof.LibPlainDot.lean ====
/-
  A plain matrix product read at an entry, over the extended reals: entry (r, c) of A · W is the sum over k of
  A (r, k) · W (k, c). Stated for the dimension numbers "rows × contraction by contraction × columns" at any sizes.
-/
import Idealize.ShloMosaic.Lib.ValueIdx
import Idealize.ShloMosaic.PureOps.Ideal.Laws

noncomputable section

namespace Cert.LibPlainDot

open Idealize.ShloMosaic Idealize.ShloMosaic.ValueIdx
open scoped BigOperators

variable {M K N : Nat}

theorem lhs_row (j : (⟨2, ![M, N]⟩ : Shape).Idx) (q : (DotDims.plain M K N).contr.Idx) :
    ((DotDims.plain M K N).lhsIdx j q 0).val = (j 0).val := rfl
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_col (j : (⟨2, ![M, N]⟩ : Shape).Idx) (q : (DotDims.plain M K N).contr.Idx) :
    ((DotDims.plain M K N).rhsIdx j q 1).val = (j 1).val := rfl

/-- THE PRODUCT AT (r, c): the sum over the contracted axis of the row of A times the column of W. -/
theorem plain_dot_apply {φ₁ φ₂ : FTy} (prec : Option ContractPrecision)
    (A : FVec Ideal ⟨2, ![M, K]⟩ φ₁) (W : FVec Ideal ⟨2, ![K, N]⟩ φ₂) (r : Fin M) (c : Fin N) :
    Host.dotGeneral (DotDims.plain M K N) prec A W (ix2 r c) = ∑ k : Fin K, A (ix2 r k) * W (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_contr _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_contr _ _).trans hk
      | ⟨1, _⟩ => exact rhs_col _ _)
  rw [el, er]

end Cert.LibPlainDot

end
-- ==== Proof.Algebra.lean ====
/-
  Multiplying every row of a table by a matrix, against the row gather and the row scatter.

  timesRows X W is X · W read row by row: entry (r, e) is the sum over k of X (r, k) · W (k, e), on the extended reals.
  It is a map of rows, so it commutes with taking rows (a gather of rows of X · W is the gather of rows of X, times W)
  and with writing rows (a row scatter into X of rows U, times W, is the row scatter into X · W of the rows U · W).
  A table of zeros times W is a table of zeros: 0 · w = 0 for every extended real w, the infinite ones included.
-/
import proofs.«412707_j52621939310811_3_alg».proof.Proof.LibRowScatter
import proofs.«412707_j52621939310811_3_alg».proof.Proof.LibPlainDot

noncomputable section

namespace Cert.Bridge.Algebra

open Idealize.ShloMosaic Idealize.ShloMosaic.ValueIdx Cert.LibRowScatter Cert.LibPlainDot
open scoped BigOperators

variable {R K C : Nat}

/-- One row times a matrix. -/
def timesRow (W : FVec Ideal ⟨2, ![K, C]⟩ .f32) (row : Fin K → Ideal .f32) : Fin C → Ideal .f32 :=
  fun e => ∑ k : Fin K, row k * W (ix2 k e)

/-- Every row of X times W. -/
def timesRows (X : FVec Ideal ⟨2, ![R, K]⟩ .f32) (W : FVec Ideal ⟨2, ![K, C]⟩ .f32) : FVec Ideal ⟨2, ![R, C]⟩ .f32 :=
  fun i => timesRow W (fun k => X (ix2 (i 0) k)) (i 1)

theorem timesRows_apply (X : FVec Ideal ⟨2, ![R, K]⟩ .f32) (W : FVec Ideal ⟨2, ![K, C]⟩ .f32) (r : Fin R) (e : Fin C) :
    timesRows X W (ix2 r e) = ∑ k : Fin K, X (ix2 r k) * W (ix2 k e) := rfl

/-- The host's plain matrix product is timesRows. -/
theorem dot_eq_timesRows (prec : Option ContractPrecision) (X : FVec Ideal ⟨2, ![R, K]⟩ .f32) (W : FVec Ideal ⟨2, ![K, C]⟩ .f32) :
    Host.dotGeneral (DotDims.plain R K C) prec X W = timesRows X W := by
  funext i
  obtain ⟨r, e, rfl⟩ : ∃ (r : Fin R) (e : Fin C), i = ix2 r e := ⟨i 0, i 1, eq_ix2 i⟩
  rw [plain_dot_apply, timesRows_apply]

/-- Rows of X · W taken at row indices are the rows of X taken there, times W. -/
theorem timesRows_gather {V w : Nat} (hV : 0 < V)
    (wf : GatherDims.WF ⟨2, ![V, K]⟩ ⟨2, ![R, 1]⟩ ⟨2, ![R, K]⟩ [1] [0] [] [0] [] 1 ![1, K])
    (wf' : GatherDims.WF ⟨2, ![V, C]⟩ ⟨2, ![R, 1]⟩ ⟨2, ![R, C]⟩ [1] [0] [] [0] [] 1 ![1, C])
    (T : FVec Ideal ⟨2, ![V, K]⟩ .f32) (W : FVec Ideal ⟨2, ![K, C]⟩ .f32) (idx : IVec ⟨2, ![R, 1]⟩ w) :
    timesRows (Host.gather (takeRows V R K wf) T idx) W = Host.gather (takeRows V R C wf') (timesRows T W) idx := by
  funext i
  obtain ⟨r, e, rfl⟩ : ∃ (r : Fin R) (e : Fin C), i = ix2 r e := ⟨i 0, i 1, eq_ix2 i⟩
  rw [gather_rows_apply hV wf', timesRows_apply, timesRows_apply]
  exact Finset.sum_congr rfl fun k _ => by rw [gather_rows_apply hV wf]

/-- A row scatter into X of rows U, times W, is the row scatter into X · W of the rows U · W. -/
theorem timesRows_scatter {M w : Nat}
    (wf : ScatterDims.WF ⟨2, ![R, K]⟩ ⟨2, ![M, 1]⟩ ⟨2, ![M, K]⟩ [1] [0] [0] 1)
    (wf' : ScatterDims.WF ⟨2, ![R, C]⟩ ⟨2, ![M, 1]⟩ ⟨2, ![M, C]⟩ [1] [0] [0] 1)
    (X : FVec Ideal ⟨2, ![R, K]⟩ .f32) (U : FVec Ideal ⟨2, ![M, K]⟩ .f32) (W : FVec Ideal ⟨2, ![K, C]⟩ .f32)
    (idx : IVec ⟨2, ![M, 1]⟩ w) :
    timesRows (Host.scatter (rowsDims R M K wf) (fun _ b => b) X idx U) W
      = Host.scatter (rowsDims R M C wf') (fun _ b => b) (timesRows X W) idx (timesRows U W) := by
  funext i
  obtain ⟨r, e, rfl⟩ : ∃ (r : Fin R) (e : Fin C), i = ix2 r e := ⟨i 0, i 1, eq_ix2 i⟩
  exact scatter_rows_map wf wf' (timesRow W) X idx U r e

/-- A table of zeros times W is a table of zeros. -/
theorem timesRows_zero (W : FVec Ideal ⟨2, ![K, C]⟩ .f32) :
    timesRows (fun _ => (0 : Ideal .f32) : FVec Ideal ⟨2, ![R, K]⟩ .f32) W = fun _ => (0 : Ideal .f32) := by
  funext i
  show ∑ k : Fin K, (0 : EReal) * W (ix2 k (i 1)) = 0
  exact Finset.sum_eq_zero fun k _ => zero_mul _

end Cert.Bridge.Algebra

end
-- ==== Proof.Equal.lean ====
/-
  The two programs compute one table.

  Reference: out = fixed_table[ff] · W_fixed + S · W_sparse + b, where S is a table of zeros into which, key after key,
  the rows tab_k[val_k] are written at the rows idx_k. Kernel: out = (fixed_table · W_fixed)[ff] + S' + b, where S' is a
  table of zeros into which the rows (tab_k · W_sparse)[val_k] are written at the rows idx_k, in the same order.

  Multiplying by a matrix is a map of rows. Taking rows commutes with it, and so does writing rows: whatever the
  indices idx_k are — repeated, negative, out of range — the same update row wins each row of S and of S', so
  S · W_sparse = S' row by row; an untouched row is a row of zeros on both sides, since 0 · w = 0 on the extended
  reals. The one place the two differ is an index out of its table's range: x[i] clamps it, jnp.take fills the row
  with NaN. With every feature index in [0, 2048) and every value index in [0, 64) the fill test always passes.
-/
import proofs.«412707_j52621939310811_3_alg».proof.Proof.HostTerms
import proofs.«412707_j52621939310811_3_alg».proof.Proof.KernelValue
import proofs.«412707_j52621939310811_3_alg».proof.Proof.Gen.ReferenceIdeal.Read
import proofs.«412707_j52621939310811_3_alg».proof.Proof.Algebra
import proofs.«412707_j52621939310811_3_alg».proof.Proof.Words
import Idealize.ShloMosaic.Lib.Pipeline.Value

set_option maxRecDepth 16384

noncomputable section

namespace Cert.Bridge.Equal

open Cert.KernelIdeal
open Idealize.ShloMosaic Idealize.ShloMosaic.ValueIdx
open Cert.LibRowScatter Cert.LibPlainDot Cert.Bridge.Algebra Cert.Bridge.KernelHost Cert.Bridge

/-! ## The start-index columns, entry by entry -/

/-- An in-range feature index is its own start index. -/
theorem colF_eq (ff : IVec S1000000 32) (hff : ∀ i, 0 ≤ (ff i).toInt ∧ (ff i).toInt < 2048) (n : Fin 1000000) :
    colF ff (ix2 n 0) = ff (ix1 n) := by
  have h : colF ff (ix2 n 0) = _ := broadcastInDim_apply _ _ _ (ix2 n 0) (ix1 n) (fun a => match a with
    | ⟨0, _⟩ => by show n.val = if (1000000 : Nat) = 1 then 0 else n.val; rw [if_neg (by decide)])
  exact h.trans (Words.wrap_eq (ff (ix1 n)) _ (hff _).1)

/-- An in-range value index is its own start index. -/
theorem colV_eq (val : IVec S125000 32) (hval : ∀ i, 0 ≤ (val i).toInt ∧ (val i).toInt < 64) (j : Fin 125000) :
    colV val (ix2 j 0) = val (ix1 j) := by
  have h : colV val (ix2 j 0) = _ := broadcastInDim_apply _ _ _ (ix2 j 0) (ix1 j) (fun a => match a with
    | ⟨0, _⟩ => by show j.val = if (125000 : Nat) = 1 then 0 else j.val; rw [if_neg (by decide)])
  exact h.trans (Words.wrap_eq (val (ix1 j)) _ (hval _).1)

/-- So the fill test of the fixed take passes on every row. -/
theorem maskF_one (ff : IVec S1000000 32) (hff : ∀ i, 0 ≤ (ff i).toInt ∧ (ff i).toInt < 2048) (i : S1000000x128.Idx) :
    maskF (colF ff) i = 1#1 := by
  unfold maskF
  show Host.reduce IntOp.andi _ _ _ _ _ = 1#1
  refine Words.reduce_andi_ones _ _ _ _ (fun i' => ?_) (fun _ => rfl) _
  obtain ⟨n, z, rfl⟩ : ∃ (n : Fin 1000000) (z : Fin 1), i' = ix2 n z := ⟨i' 0, i' 1, eq_ix2 i'⟩
  obtain rfl : z = 0 := Subsingleton.elim _ _
  show IntOp.andi (IntOp.cmpi .sge (colF ff (ix2 n 0)) 0#32) (IntOp.cmpi .sle (colF ff (ix2 n 0)) 2047#32) = 1#1
  rw [colF_eq ff hff n]
  exact Words.tests_of_range _ 2047 (by norm_num) ⟨(hff _).1, by have := (hff (ix1 n)).2; omega⟩

/-- And the fill test of a key's take passes on every row. -/
theorem maskV_one (val : IVec S125000 32) (hval : ∀ i, 0 ≤ (val i).toInt ∧ (val i).toInt < 64) (i : S125000x128.Idx) :
    maskV (colV val) i = 1#1 := by
  unfold maskV
  show Host.reduce IntOp.andi _ _ _ _ _ = 1#1
  refine Words.reduce_andi_ones _ _ _ _ (fun i' => ?_) (fun _ => rfl) _
  obtain ⟨n, z, rfl⟩ : ∃ (n : Fin 125000) (z : Fin 1), i' = ix2 n z := ⟨i' 0, i' 1, eq_ix2 i'⟩
  obtain rfl : z = 0 := Subsingleton.elim _ _
  show IntOp.andi (IntOp.cmpi .sge (colV val (ix2 n 0)) 0#32) (IntOp.cmpi .sle (colV val (ix2 n 0)) 63#32) = 1#1
  rw [colV_eq val hval n]
  exact Words.tests_of_range _ 63 (by norm_num) ⟨(hval _).1, by have := (hval (ix1 n)).2; omega⟩

variable {F : FTy → Type} [FloatOps F]

/-- With the fill test passing everywhere, jnp.take is the plain row gather. -/
theorem takeF_eq (ff : IVec S1000000 32) (hff : ∀ i, 0 ≤ (ff i).toInt ∧ (ff i).toInt < 2048) (T : FVec F S2048x128 .f32) :
    takeF ff T = Host.gather gather_S2048x128_S1000000x1_S1000000x128_1_0_n_n_0_1_1128 T (colF ff) := by
  funext i
  unfold takeF
  show Scalar.select (maskF (colF ff) i) _ _ = _
  rw [maskF_one ff hff i]
  exact if_pos rfl

theorem takeV_eq (val : IVec S125000 32) (hval : ∀ i, 0 ≤ (val i).toInt ∧ (val i).toInt < 64) (T : FVec F S64x128 .f32) :
    takeV val T = Host.gather gather_S64x128_S125000x1_S125000x128_1_0_n_n_0_1_1128 T (colV val) := by
  funext i
  unfold takeV
  show Scalar.select (maskV (colV val) i) _ _ = _
  rw [maskV_one val hval i]
  exact if_pos rfl

/-! ## The fixed contribution -/

/-- The kernel's fixed contribution: the rows of fixed_table · W_fixed at the feature indices. -/
theorem ker_fixed (ff : IVec S1000000 32) (hff : ∀ i, 0 ≤ (ff i).toInt ∧ (ff i).toInt < 2048)
    (ft : FVec Ideal S2048x128 .f32) (Wf : FVec Ideal S128x128 .f32) :
    fixedPart ff ft Wf
      = Host.gather (takeRows 2048 1000000 128 gather_S2048x128_S1000000x1_S1000000x128_1_0_n_n_0_1_1128.wf) (timesRows ft Wf) (colF ff) := by
  unfold fixedPart
  rw [takeF_eq ff hff, show dot_S2048x128_S128x128_S2048x128_1_0_0_1_n_n = DotDims.plain 2048 128 128 from rfl, dot_eq_timesRows]
  rfl

/-- The reference's fixed contribution is the same rows: taking rows commutes with the product. -/
theorem ref_fixed (ff : IVec S1000000 32) (ft : FVec Ideal S2048x128 .f32) (Wf : FVec Ideal S128x128 .f32) :
    Cert.ReferenceIdeal.Read.val_main_v64 (F := Ideal) ff ft Wf
      = Host.gather (takeRows 2048 1000000 128 gather_S2048x128_S1000000x1_S1000000x128_1_0_n_n_0_1_1128.wf) (timesRows ft Wf) (colF ff) := by
  unfold Cert.ReferenceIdeal.Read.val_main_v64 Cert.ReferenceIdeal.Read.val_main_v6
  rw [show Cert.ReferenceIdeal.dot_S1000000x128_S128x128_S1000000x128_1_0_0_1_n_n = DotDims.plain 1000000 128 128 from rfl, dot_eq_timesRows]
  exact timesRows_gather (by norm_num) gather_S2048x128_S1000000x1_S1000000x128_1_0_n_n_0_1_1128.wf _ ft Wf (colF ff)

/-! ## The sparse contribution -/

/-- A key's update rows in the kernel: the rows of tab · W_sparse at the key's value indices. -/
theorem ker_rows (val : IVec S125000 32) (hval : ∀ i, 0 ≤ (val i).toInt ∧ (val i).toInt < 64)
    (tab : FVec Ideal S64x128 .f32) (Ws : FVec Ideal S128x128 .f32) :
    keyRows val tab Ws
      = Host.gather (takeRows 64 125000 128 gather_S64x128_S125000x1_S125000x128_1_0_n_n_0_1_1128.wf) (timesRows tab Ws) (colV val) := by
  unfold keyRows
  rw [takeV_eq val hval, show dot_S64x128_S128x128_S64x128_1_0_0_1_n_n = DotDims.plain 64 128 128 from rfl, dot_eq_timesRows]
  rfl

/-- ONE KEY'S PASS: the reference's pass over acc, times W_sparse, is the kernel's pass over acc · W_sparse. -/
theorem pass_eq (Ws : FVec Ideal S128x128 .f32) (acc accK : FVec Ideal S1000000x128 .f32) (hacc : timesRows acc Ws = accK)
    (idx val : IVec S125000 32) (hval : ∀ i, 0 ≤ (val i).toInt ∧ (val i).toInt < 64) (tab : FVec Ideal S64x128 .f32) :
    timesRows (Host.scatter Cert.ReferenceIdeal.scatter_S1000000x128_S125000x1_S125000x128_1_0_0_1 (fun _ b => b) acc (colI idx)
        (Host.gather Cert.ReferenceIdeal.gather_S64x128_S125000x1_S125000x128_1_0_n_n_0_1_1128 tab (colV val))) Ws
      = keyPass accK idx val tab Ws := by
  subst hacc
  unfold keyPass
  rw [ker_rows val hval tab Ws]
  have h := timesRows_scatter scatter_S1000000x128_S125000x1_S125000x128_1_0_0_1.wf scatter_S1000000x128_S125000x1_S125000x128_1_0_0_1.wf
    acc (Host.gather (takeRows 64 125000 128 gather_S64x128_S125000x1_S125000x128_1_0_n_n_0_1_1128.wf) tab (colV val)) Ws (colI idx)
  rw [timesRows_gather (by norm_num) gather_S64x128_S125000x1_S125000x128_1_0_n_n_0_1_1128.wf
    gather_S64x128_S125000x1_S125000x128_1_0_n_n_0_1_1128.wf tab Ws (colV val)] at h
  exact h

/-- The table of zeros the passes start from, times W_sparse, is the kernel's table of zeros. -/
theorem zeros_eq (Ws : FVec Ideal S128x128 .f32) :
    timesRows (Cert.ReferenceIdeal.Read.val_main_v7 (F := Ideal)) Ws
      = broadcastInDim S1000000x128 ![] Facts₀.bcast_S_S1000000x128 (constant (F := Ideal) S_ .f32 0x00000000#32) := by
  have hz : (Cert.ReferenceIdeal.Read.val_main_v7 (F := Ideal)) = fun _ => (0 : Ideal .f32) := by
    funext i
    show Ideal.ofBits .f32 0x00000000#32 = 0
    exact Ideal.ofBits_zero_f32
  rw [hz, timesRows_zero]
  funext i
  show (0 : Ideal .f32) = Ideal.ofBits .f32 0x00000000#32
  exact Ideal.ofBits_zero_f32.symm

/-- THE SPARSE CONTRIBUTION: the reference's scattered table times W_sparse is the kernel's scattered table. -/
theorem sparse_eq (i0 v0 i1 v1 i2 v2 i3 v3 : IVec S125000 32)
    (h0 : ∀ i, 0 ≤ (v0 i).toInt ∧ (v0 i).toInt < 64) (h1 : ∀ i, 0 ≤ (v1 i).toInt ∧ (v1 i).toInt < 64)
    (h2 : ∀ i, 0 ≤ (v2 i).toInt ∧ (v2 i).toInt < 64) (h3 : ∀ i, 0 ≤ (v3 i).toInt ∧ (v3 i).toInt < 64)
    (t0 t1 t2 t3 : FVec Ideal S64x128 .f32) (Ws : FVec Ideal S128x128 .f32) :
    Cert.ReferenceIdeal.Read.val_main_v65 (F := Ideal) i0 v0 i1 v1 i2 v2 i3 v3 t0 t1 t2 t3 Ws
      = sparsePart i0 v0 i1 v1 i2 v2 i3 v3 t0 t1 t2 t3 Ws := by
  unfold Cert.ReferenceIdeal.Read.val_main_v65
  rw [show Cert.ReferenceIdeal.dot_S1000000x128_S128x128_S1000000x128_1_0_0_1_n_n = DotDims.plain 1000000 128 128 from rfl, dot_eq_timesRows]
  unfold sparsePart
  exact pass_eq Ws _ _ (pass_eq Ws _ _ (pass_eq Ws _ _ (pass_eq Ws _ _ (zeros_eq Ws) i0 v0 h0 t0) i1 v1 h1 t1) i2 v2 h2 t2) i3 v3 h3 t3

/-! ## The bias, and the whole table -/

/-- The bias under entry (n, e): the reference's broadcast and the kernel's 1 × 128 row both read b at e. -/
theorem bias_eq (b : FVec Ideal S128 .f32) (n : Fin 1000000) (e : Fin 128) :
    Cert.ReferenceIdeal.Read.val_main_v68 (F := Ideal) b (ix2 n e)
      = shapeCast S1x128 b Facts₀.shapeCasts_S128_S1x128 (fun a => match a with | ⟨0, _⟩ => ⟨0, Nat.one_pos⟩ | ⟨1, _⟩ => ⟨e.val, e.isLt⟩) := by
  rw [Cert.ReferenceIdeal.Read.val_main_v68_apply, Cert.ReferenceIdeal.Read.val_main_v67_apply]
  refine (shapeCast_apply b Facts₀.shapeCasts_S128_S1x128 _ _ ?_).symm
  rw [Shape.rowMajor_val_one, Shape.rowMajor_val_two]
  show e.val = 0 * 128 + e.val
  omega

/-- THE WHOLE TABLE: with the index inputs in range, the reference's result is the kernel's merged table of its fixed
    contribution, its sparse contribution and its bias row, of the same arguments. -/
theorem result_eq (ff : IVec S1000000 32) (i0 v0 i1 v1 i2 v2 i3 v3 : IVec S125000 32) (ft : FVec Ideal S2048x128 .f32)
    (t0 t1 t2 t3 : FVec Ideal S64x128 .f32) (Wf Ws : FVec Ideal S128x128 .f32) (b : FVec Ideal S128 .f32)
    (hff : ∀ i, 0 ≤ (ff i).toInt ∧ (ff i).toInt < 2048)
    (h0 : ∀ i, 0 ≤ (v0 i).toInt ∧ (v0 i).toInt < 64) (h1 : ∀ i, 0 ≤ (v1 i).toInt ∧ (v1 i).toInt < 64)
    (h2 : ∀ i, 0 ≤ (v2 i).toInt ∧ (v2 i).toInt < 64) (h3 : ∀ i, 0 ≤ (v3 i).toInt ∧ (v3 i).toInt < 64) :
    Cert.ReferenceIdeal.Read.val_main_v69 (F := Ideal) ff i0 v0 i1 v1 i2 v2 i3 v3 ft t0 t1 t2 t3 Wf Ws b
      = KernelValue.merged (fixedPart ff ft Wf) (sparsePart i0 v0 i1 v1 i2 v2 i3 v3 t0 t1 t2 t3 Ws)
          (shapeCast S1x128 b Facts₀.shapeCasts_S128_S1x128) := by
  funext i
  obtain ⟨n, e, rfl⟩ : ∃ (n : Fin 1000000) (e : Fin 128), i = ix2 n e := ⟨i 0, i 1, eq_ix2 i⟩
  rw [Cert.ReferenceIdeal.Read.val_main_v69_apply, Cert.ReferenceIdeal.Read.val_main_v66_apply, ref_fixed, ← ker_fixed ff hff,
    sparse_eq i0 v0 i1 v1 i2 v2 i3 v3 h0 h1 h2 h3, bias_eq]
  rfl

end Cert.Bridge.Equal

end
-- ==== Proof.lean ====
/-
  The kernel against its reference, over the extended reals.

  Both compute, for a million rows n and 128 columns e,
      out (n, e) = Σ_k fixed_table (ff n, k) · W_fixed (k, e) + Σ_k S (n, k) · W_sparse (k, e) + b e,
  where S is a table of zeros into which, key after key, row tab_k (val_k j) is written at row idx_k j. The reference
  multiplies after gathering and scattering; the kernel multiplies the small tables first, gathers and scatters the
  products on the host, and adds the three terms in one region of 125 blocks of 8000 rows. Multiplying by a matrix is
  a map of rows, and row gathers and row scatters commute with any map of rows, so the two agree whatever the scatter
  indices are (Equal.lean). They would differ only at a feature or value index outside its table, where x[i] clamps
  and jnp.take fills with NaN: the precondition keeps those indices in range (Domain.lean).

  The frames of the two kernel programs are the generated ones; the reference's frame is its generated run. The ideal
  pass rewrote nothing, so there is nothing to preserve.
-/
import proofs.«412707_j52621939310811_3_alg».proof.Defs
import proofs.«412707_j52621939310811_3_alg».proof.Proof.Gen.Kernel
import proofs.«412707_j52621939310811_3_alg».proof.Proof.Gen.Kernel.Skeleton
import proofs.«412707_j52621939310811_3_alg».proof.Proof.Gen.Kernel.Launch
import proofs.«412707_j52621939310811_3_alg».proof.Proof.Gen.Kernel.Points
import proofs.«412707_j52621939310811_3_alg».proof.Proof.Gen.Kernel.Frame
import proofs.«412707_j52621939310811_3_alg».proof.Proof.Gen.KernelIdeal
import proofs.«412707_j52621939310811_3_alg».proof.Proof.Gen.KernelIdeal.Skeleton
import proofs.«412707_j52621939310811_3_alg».proof.Proof.Gen.KernelIdeal.Launch
import proofs.«412707_j52621939310811_3_alg».proof.Proof.Gen.KernelIdeal.Points
import proofs.«412707_j52621939310811_3_alg».proof.Proof.Gen.KernelIdeal.Frame
import proofs.«412707_j52621939310811_3_alg».proof.Proof.Gen.ReferenceIdeal
import proofs.«412707_j52621939310811_3_alg».proof.Proof.Gen.Pre_finite_inputs
import proofs.«412707_j52621939310811_3_alg».proof.Proof.Gen.KernelIdeal.Value
import proofs.«412707_j52621939310811_3_alg».proof.Proof.Gen.ReferenceIdeal.Run
import proofs.«412707_j52621939310811_3_alg».proof.Proof.Gen.ReferenceIdeal.Read
import proofs.«412707_j52621939310811_3_alg».proof.Proof.KernelHost
import proofs.«412707_j52621939310811_3_alg».proof.Proof.KernelValue
import proofs.«412707_j52621939310811_3_alg».proof.Proof.Domain
import proofs.«412707_j52621939310811_3_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The three arrays the merge region finds, as functions of the arguments. -/
theorem region_arrays (m : (ℓ : Loc Cert.KernelIdeal.nD Cert.KernelIdeal.τ Cert.KernelIdeal.sig) → Buf (Elt Ideal) ℓ)
    (c : Dev Cert.KernelIdeal.nD) :
    Cert.Bridge.KernelValue.merged (Cert.KernelIdeal.Gen.V m c (Pipeline.arrRef Cert.KernelIdeal.spec0 0))
        (Cert.KernelIdeal.Gen.V m c (Pipeline.arrRef Cert.KernelIdeal.spec0 1))
        (Cert.KernelIdeal.Gen.V m c (Pipeline.arrRef Cert.KernelIdeal.spec0 2))
      = Cert.Bridge.KernelValue.merged
          (Cert.Bridge.KernelHost.fixedPart (m ((c : Thread Cert.KernelIdeal.nD Cert.KernelIdeal.τ).loc Cert.KernelIdeal.main_arg0))
            (m ((c : Thread Cert.KernelIdeal.nD Cert.KernelIdeal.τ).loc Cert.KernelIdeal.main_arg9))
            (m ((c : Thread Cert.KernelIdeal.nD Cert.KernelIdeal.τ).loc Cert.KernelIdeal.main_arg14)))
          (Cert.Bridge.KernelHost.sparsePart
            (m ((c : Thread Cert.KernelIdeal.nD Cert.KernelIdeal.τ).loc Cert.KernelIdeal.main_arg1))
            (m ((c : Thread Cert.KernelIdeal.nD Cert.KernelIdeal.τ).loc Cert.KernelIdeal.main_arg2))
            (m ((c : Thread Cert.KernelIdeal.nD Cert.KernelIdeal.τ).loc Cert.KernelIdeal.main_arg3))
            (m ((c : Thread Cert.KernelIdeal.nD Cert.KernelIdeal.τ).loc Cert.KernelIdeal.main_arg4))
            (m ((c : Thread Cert.KernelIdeal.nD Cert.KernelIdeal.τ).loc Cert.KernelIdeal.main_arg5))
            (m ((c : Thread Cert.KernelIdeal.nD Cert.KernelIdeal.τ).loc Cert.KernelIdeal.main_arg6))
            (m ((c : Thread Cert.KernelIdeal.nD Cert.KernelIdeal.τ).loc Cert.KernelIdeal.main_arg7))
            (m ((c : Thread Cert.KernelIdeal.nD Cert.KernelIdeal.τ).loc Cert.KernelIdeal.main_arg8))
            (m ((c : Thread Cert.KernelIdeal.nD Cert.KernelIdeal.τ).loc Cert.KernelIdeal.main_arg10))
            (m ((c : Thread Cert.KernelIdeal.nD Cert.KernelIdeal.τ).loc Cert.KernelIdeal.main_arg11))
            (m ((c : Thread Cert.KernelIdeal.nD Cert.KernelIdeal.τ).loc Cert.KernelIdeal.main_arg12))
            (m ((c : Thread Cert.KernelIdeal.nD Cert.KernelIdeal.τ).loc Cert.KernelIdeal.main_arg13))
            (m ((c : Thread Cert.KernelIdeal.nD Cert.KernelIdeal.τ).loc Cert.KernelIdeal.main_arg15)))
          (shapeCast Cert.KernelIdeal.S1x128 (m ((c : Thread Cert.KernelIdeal.nD Cert.KernelIdeal.τ).loc Cert.KernelIdeal.main_arg16))
            Cert.KernelIdeal.Facts₀.shapeCasts_S128_S1x128) := by
  have e0 : Cert.KernelIdeal.Gen.V m c (Pipeline.arrRef Cert.KernelIdeal.spec0 0) = Cert.KernelIdeal.Gen.V m c Cert.KernelIdeal.main_call0_v5 := rfl
  have e1 : Cert.KernelIdeal.Gen.V m c (Pipeline.arrRef Cert.KernelIdeal.spec0 1) = Cert.KernelIdeal.Gen.V m c Cert.KernelIdeal.main_call0_v38 := rfl
  have e2 : Cert.KernelIdeal.Gen.V m c (Pipeline.arrRef Cert.KernelIdeal.spec0 2) = Cert.KernelIdeal.Gen.V m c Cert.KernelIdeal.main_call0_v39 := rfl
  rw [e0, e1, e2, Cert.Bridge.KernelHost.V_fixed, Cert.Bridge.KernelHost.V_sparse, Cert.Bridge.KernelHost.V_bias]

theorem algebraic : Cert.algebraic_KernelIdeal_ReferenceIdeal := by
  intro m ρ m' ρ' hpre hagree
  refine ⟨fun c => Cert.Bridge.KernelValue.merged (Cert.KernelIdeal.Gen.V m c (Pipeline.arrRef Cert.KernelIdeal.spec0 0))
      (Cert.KernelIdeal.Gen.V m c (Pipeline.arrRef Cert.KernelIdeal.spec0 1))
      (Cert.KernelIdeal.Gen.V m c (Pipeline.arrRef Cert.KernelIdeal.spec0 2)),
    Cert.Bridge.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  obtain ⟨r0, r2, r4, r6, r8⟩ := Cert.Bridge.Domain.ranges_of_pre _ _ _ _ _ _ _ _ _ _ _ _ _ _ _ _ _ (hpre c)
  rw [Cert.ReferenceIdeal.Read.val_main_v69_eq, a0, a1, a2, a3, a4, a5, a6, a7, a8, a9, a10, a11, a12, a13, a14, a15, a16]
  exact (Cert.Bridge.Equal.result_eq _ _ _ _ _ _ _ _ _ _ _ _ _ _ _ _ _ r0 r2 r4 r6 r8).trans (region_arrays m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
